-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x1000 : Shape := ⟨2, ![200000, 1000]⟩
abbrev S64 : Shape := ⟨1, ![64]⟩
abbrev S200000 : Shape := ⟨1, ![200000]⟩
abbrev S256x1000 : Shape := ⟨2, ![256, 1000]⟩
abbrev S256 : Shape := ⟨1, ![256]⟩
abbrev S256x256 : Shape := ⟨2, ![256, 256]⟩
abbrev S32x256 : Shape := ⟨2, ![32, 256]⟩
abbrev S32 : Shape := ⟨1, ![32]⟩
abbrev S64x32 : Shape := ⟨2, ![64, 32]⟩
abbrev S8x64 : Shape := ⟨2, ![8, 64]⟩
abbrev S_ : Shape := ⟨0, ![]⟩

class Facts : Prop where
  bcast_S_S200000x1000 : S_.BroadcastsInDim S200000x1000 (![] : Fin 0 → Fin S200000x1000.rank)
  reducesTo_S200000x1000_S_d0_1 : S200000x1000.ReducesTo [0, 1] S_
  h_S_ : 0 < S_.numel
  bcast_S_S256x1000 : S_.BroadcastsInDim S256x1000 (![] : Fin 0 → Fin S256x1000.rank)
  reducesTo_S256x1000_S_d0_1 : S256x1000.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  bcast_S_S64x32 : S_.BroadcastsInDim S64x32 (![] : Fin 0 → Fin S64x32.rank)
  reducesTo_S64x32_S_d0_1 : S64x32.ReducesTo [0, 1] S_
  bcast_S_S8x64 : S_.BroadcastsInDim S8x64 (![] : Fin 0 → Fin S8x64.rank)
  reducesTo_S8x64_S_d0_1 : S8x64.ReducesTo [0, 1] S_

variable [Facts]

def fn_part2 {F : FTy → Type} [FloatOps F] (main_arg9 : FVec F S64x32 .f32) (main_arg10 : FVec F S8x64 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S8x64 .f32 := Host.absf main_arg10
  let main_cst_14 : FVec F S_ .f32 := constant S_ .f32 0x7F800000#32
  let main_v40 : FVec F S8x64 .f32 := broadcastInDim S8x64 ![] bcast_S_S8x64 main_cst_14
  let main_v41 : IVec S8x64 1 := cmpf .olt main_v39 main_v40
  let main_c_15 : IVec S_ 1 := constantI S_ 1 1#1
  let main_v42 : IVec S_ 1 := (fun x v => Host.reduce IntOp.andi x v reducesTo_S8x64_S_d0_1 h_S_) main_v41 main_c_15
  let main_v43 : IVec S_ 1 := andi main_v38 main_v42
  main_v43

def fn_part1 {F : FTy → Type} [FloatOps F] (main_arg6 : FVec F S256 .f32) (main_arg7 : FVec F S32x256 .f32) (main_arg8 : FVec F S32 .f32) (main_arg9 : FVec F S64x32 .f32) (main_arg10 : FVec F S8x64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S32x256 .f32 := Host.absf main_arg7
  let main_cst_8 : FVec F S_ .f32 := constant S_ .f32 0x7F800000#32
  let main_v25 : FVec F S32x256 .f32 := broadcastInDim S32x256 ![] bcast_S_S32x256 main_cst_8
  let main_v26 : IVec S32x256 1 := cmpf .olt main_v24 main_v25
  let main_c_9 : IVec S_ 1 := constantI S_ 1 1#1
  let main_v27 : IVec S_ 1 := (fun x v => Host.reduce IntOp.andi x v reducesTo_S32x256_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_v33

def fn {F : FTy → Type} [FloatOps F] (main_arg0 : FVec F S200000x1000 .f32) (main_arg1 : IVec S64 32) (main_arg2 : IVec S200000 32) (main_arg3 : FVec F S256x1000 .f32) (main_arg4 : FVec F S256 .f32) (main_arg5 : FVec F S256x256 .f32) (main_arg6 : FVec F S256 .f32) (main_arg7 : FVec F S32x256 .f32) (main_arg8 : FVec F S32 .f32) (main_arg9 : FVec F S64x32 .f32) (main_arg10 : FVec F S8x64 .f32) : IVec S_ 1 :=
  let main_v0 : FVec F S200000x1000 .f32 := Host.absf main_arg0
  let main_cst : FVec F S_ .f32 := constant S_ .f32 0x7F800000#32
  let main_v1 : FVec F S200000x1000 .f32 := broadcastInDim S200000x1000 ![] bcast_S_S200000x1000 main_cst
  let main_v2 : IVec S200000x1000 1 := cmpf .olt main_v0 main_v1
  let main_c : IVec S_ 1 := constantI S_ 1 1#1
  let main_v3 : IVec S_ 1 := (fun x v => Host.reduce IntOp.andi x v reducesTo_S200000x1000_S_d0_1 h_S_) main_v2 main_c
  let main_v4 : FVec F S256x1000 .f32 := Host.absf main_arg3
  let main_cst_0 : FVec F S_ .f32 := constant S_ .f32 0x7F800000#32
  let main_v5 : FVec F S256x1000 .f32 := broadcastInDim S256x1000 ![] bcast_S_S256x1000 main_cst_0
  let main_v6 : IVec S256x1000 1 := cmpf .olt main_v4 main_v5
  let main_c_1 : IVec S_ 1 := constantI S_ 1 1#1
  let main_v7 : IVec S_ 1 := (fun x v => Host.reduce IntOp.andi x v reducesTo_S256x1000_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_v13 main_v16
-- ==== Kernel.lean ====
abbrev S200000x1000 : Shape := ⟨2, ![200000, 1000]⟩
abbrev S64 : Shape := ⟨1, ![64]⟩
abbrev S200000 : Shape := ⟨1, ![200000]⟩
abbrev S256x1000 : Shape := ⟨2, ![256, 1000]⟩
abbrev S256 : Shape := ⟨1, ![256]⟩
abbrev S256x256 : Shape := ⟨2, ![256, 256]⟩
abbrev S32x256 : Shape := ⟨2, ![32, 256]⟩
abbrev S32 : Shape := ⟨1, ![32]⟩
abbrev S64x32 : Shape := ⟨2, ![64, 32]⟩
abbrev S8x64 : Shape := ⟨2, ![8, 64]⟩
abbrev S200000x1 : Shape := ⟨2, ![200000, 1]⟩
abbrev S1000x256 : Shape := ⟨2, ![1000, 256]⟩
abbrev S256x32 : Shape := ⟨2, ![256, 32]⟩
abbrev S32x64 : Shape := ⟨2, ![32, 64]⟩
abbrev S_ : Shape := ⟨0, ![]⟩
abbrev S64x8 : Shape := ⟨2, ![64, 8]⟩
abbrev S2x64x8 : Shape := ⟨3, ![2, 64, 8]⟩
abbrev S2000x1000 : Shape := ⟨2, ![2000, 1000]⟩
abbrev S2000x1 : Shape := ⟨2, ![2000, 1]⟩
abbrev S1x64x8 : Shape := ⟨3, ![1, 64, 8]⟩
abbrev S2000x256 : Shape := ⟨2, ![2000, 256]⟩
abbrev S1x256 : Shape := ⟨2, ![1, 256]⟩
abbrev S2000x32 : Shape := ⟨2, ![2000, 32]⟩
abbrev S1x32 : Shape := ⟨2, ![1, 32]⟩
abbrev S2000 : Shape := ⟨1, ![2000]⟩
abbrev S2000x64 : Shape := ⟨2, ![2000, 64]⟩
abbrev S1x64 : Shape := ⟨2, ![1, 64]⟩
abbrev S2000x8 : Shape := ⟨2, ![2000, 8]⟩
abbrev S64x1 : Shape := ⟨2, ![64, 1]⟩
abbrev S64x1x1 : Shape := ⟨3, ![64, 1, 1]⟩
abbrev S1 : Shape := ⟨1, ![1]⟩
abbrev S1x1x1 : Shape := ⟨3, ![1, 1, 1]⟩

abbrev nBuf : Space → Nat
  | .hbm => 78
  | .vmem => 15
  | .smem => 0
  | _ => 0

abbrev bufTy : (tb : Table) → Fin (tcTables nBuf tb) → BufTy
  | .hbm, ⟨0, _⟩ => ⟨S200000x1000, .f32⟩
  | .hbm, ⟨1, _⟩ => ⟨S64, .i32⟩
  | .hbm, ⟨2, _⟩ => ⟨S200000, .i32⟩
  | .hbm, ⟨3, _⟩ => ⟨S256x1000, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S32x256, .f32⟩
  | .hbm, ⟨8, _⟩ => ⟨S32, .f32⟩
  | .hbm, ⟨9, _⟩ => ⟨S64x32, .f32⟩
  | .hbm, ⟨10, _⟩ => ⟨S8x64, .f32⟩
  | .hbm, ⟨11, _⟩ => ⟨S200000x1, .i32⟩
  | .hbm, ⟨12, _⟩ => ⟨S1000x256, .f32⟩
  | .hbm, ⟨13, _⟩ => ⟨S256x256, .f32⟩
  | .hbm, ⟨14, _⟩ => ⟨S256x32, .f32⟩
  | .hbm, ⟨15, _⟩ => ⟨S32x64, .f32⟩
  | .hbm, ⟨16, _⟩ => ⟨S64x32, .f32⟩
  | .hbm, ⟨17, _⟩ => ⟨S_, .f32⟩
  | .hbm, ⟨18, _⟩ => ⟨S64, .f32⟩
  | .hbm, ⟨19, _⟩ => ⟨S64x8, .f32⟩
  | .hbm, ⟨20, _⟩ => ⟨S2x64x8, .f32⟩
  | .hbm, ⟨21, _⟩ => ⟨S_, .f32⟩
  | .hbm, ⟨22, _⟩ => ⟨S64x8, .f32⟩
  | .hbm, ⟨23, _⟩ => ⟨S_, .f32⟩
  | .hbm, ⟨24, _⟩ => ⟨S200000, .f32⟩
  | .hbm, ⟨25, _⟩ => ⟨S_, .f32⟩
  | .hbm, ⟨26, _⟩ => ⟨S64, .f32⟩
  | .hbm, ⟨27, _⟩ => ⟨S200000x1, .i32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64x1, .f32⟩
  | .hbm, ⟨33, _⟩ => ⟨S64x8, .f32⟩
  | .hbm, ⟨34, _⟩ => ⟨S64x8, .f32⟩
  | .hbm, ⟨35, _⟩ => ⟨S_, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64x1, .f32⟩
  | .hbm, ⟨41, _⟩ => ⟨S64x8, .f32⟩
  | .hbm, ⟨42, _⟩ => ⟨S64x8, .f32⟩
  | .hbm, ⟨43, _⟩ => ⟨S64x8, .f32⟩
  | .hbm, ⟨44, _⟩ => ⟨S_, .f32⟩
  | .hbm, ⟨45, _⟩ => ⟨S64, .f32⟩
  | .hbm, ⟨46, _⟩ => ⟨S64x1, .f32⟩
  | .hbm, ⟨47, _⟩ => ⟨S64x1, .f32⟩
  | .hbm, ⟨48, _⟩ => ⟨S64x8, .f32⟩
  | .hbm, ⟨49, _⟩ => ⟨S64x8, .f32⟩
  | .hbm, ⟨50, _⟩ => ⟨S64x1, .i32⟩
  | .hbm, ⟨51, _⟩ => ⟨S_, .i32⟩
  | .hbm, ⟨52, _⟩ => ⟨S64x1, .i32⟩
  | .hbm, ⟨53, _⟩ => ⟨S64x1, .i1⟩
  | .hbm, ⟨54, _⟩ => ⟨S_, .i32⟩
  | .hbm, ⟨55, _⟩ => ⟨S64x1, .i32⟩
  | .hbm, ⟨56, _⟩ => ⟨S64x1, .i32⟩
  | .hbm, ⟨57, _⟩ => ⟨S64x1, .i32⟩
  | .hbm, ⟨58, _⟩ => ⟨S64x1x1, .i32⟩
  | .hbm, ⟨59, _⟩ => ⟨S1, .i32⟩
  | .hbm, ⟨60, _⟩ => ⟨S_, .i32⟩
  | .hbm, ⟨61, _⟩ => ⟨S64x1x1, .i32⟩
  | .hbm, ⟨62, _⟩ => ⟨S64x1x1, .i1⟩
  | .hbm, ⟨63, _⟩ => ⟨S1x1x1, .i32⟩
  | .hbm, ⟨64, _⟩ => ⟨S64x1x1, .i32⟩
  | .hbm, ⟨65, _⟩ => ⟨S64x1x1, .i1⟩
  | .hbm, ⟨66, _⟩ => ⟨S64x1x1, .i1⟩
  | .hbm, ⟨67, _⟩ => ⟨S_, .i1⟩
  | .hbm, ⟨68, _⟩ => ⟨S64x1, .i1⟩
  | .hbm, ⟨69, _⟩ => ⟨S64x1, .f32⟩
  | .hbm, ⟨70, _⟩ => ⟨S_, .f32⟩
  | .hbm, ⟨71, _⟩ => ⟨S64x1, .f32⟩
  | .hbm, ⟨72, _⟩ => ⟨S64x1, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .local _ .vmem, ⟨0, _⟩ => ⟨S2000x1000, .f32⟩
  | .local _ .vmem, ⟨1, _⟩ => ⟨S2000x1000, .f32⟩
  | .local _ .vmem, ⟨2, _⟩ => ⟨S2000x1, .i32⟩
  | .local _ .vmem, ⟨3, _⟩ => ⟨S2000x1, .i32⟩
  | .local _ .vmem, ⟨4, _⟩ => ⟨S1000x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x32, .f32⟩
  | .local _ .vmem, ⟨9, _⟩ => ⟨S32, .f32⟩
  | .local _ .vmem, ⟨10, _⟩ => ⟨S32x64, .f32⟩
  | .local _ .vmem, ⟨11, _⟩ => ⟨S64, .f32⟩
  | .local _ .vmem, ⟨12, _⟩ => ⟨S64x8, .f32⟩
  | .local _ .vmem, ⟨13, _⟩ => ⟨S1x64x8, .f32⟩
  | .local _ .vmem, ⟨14, _⟩ => ⟨S1x64x8, .f32⟩
  | _, _ => ⟨S200000x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_call0_cst_0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_cst_1 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_v19 : Ref sig .tc := ⟨.hbm, 49, rfl⟩
abbrev main_v20 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_cst : Ref sig .tc := ⟨.hbm, 70, rfl⟩
abbrev main_call1_v14 : Ref sig .tc := ⟨.hbm, 71, rfl⟩
abbrev main_v21 : Ref sig .tc := ⟨.hbm, 72, rfl⟩
abbrev main_cst_4 : Ref sig .tc := ⟨.hbm, 73, rfl⟩
abbrev main_v22 : Ref sig .tc := ⟨.hbm, 74, rfl⟩
abbrev main_cst_5 : Ref sig .tc := ⟨.hbm, 75, rfl⟩
abbrev main_v23 : Ref sig .tc := ⟨.hbm, 76, rfl⟩
abbrev main_v24 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1000x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x64x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  shapeCasts_S200000_S200000x1 : S200000.ShapeCasts S200000x1
  transposes_S256x1000_S1000x256_1_0 : S256x1000.Transposes [1, 0] S1000x256
  transposes_S256x256_S256x256_1_0 : S256x256.Transposes [1, 0] S256x256
  transposes_S32x256_S256x32_1_0 : S32x256.Transposes [1, 0] S256x32
  transposes_S64x32_S32x64_1_0 : S64x32.Transposes [1, 0] S32x64
  reducesTo_S64x32_S64_d1 : S64x32.ReducesTo [1] S64
  h_S_ : 0 < S_.numel
  transposes_S8x64_S64x8_1_0 : S8x64.Transposes [1, 0] S64x8
  inb_S1x64x8_S1x64x8_0_0_0 : ∀ a, (![0, 0, 0] : Fin 3 → Nat) a + S1x64x8.size a ≤ S1x64x8.size a
  h_S1x64x8 : 0 < S1x64x8.numel
  shapeCasts_S1x64x8_S64x8 : S1x64x8.ShapeCasts S64x8
  shapeCasts_S64x8_S1x64x8 : S64x8.ShapeCasts S1x64x8
  inb_S2000x1000_S2000x1000_0_0 : ∀ a, (![0, 0] : Fin 2 → Nat) a + S2000x1000.size a ≤ S2000x1000.size a
  h_S2000x1000 : 0 < S2000x1000.numel
  bitsLt_bf16_f32 : FTy.bits .bf16 < FTy.bits .f32
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  reduces_S2000x32_S2000 : S2000x32.Reduces [1] S2000
  shapeCasts_S2000_S2000x1 : S2000.ShapeCasts S2000x1
  inb_S32x64_S32x64_0_0 : ∀ a, (![0, 0] : Fin 2 → Nat) a + S32x64.size a ≤ S32x64.size a
  h_S32x64 : 0 < S32x64.numel
  shapeCasts_S32x64_S32x64 : S32x64.ShapeCasts S32x64
  broadcasts_S2000x1_S2000x64 : S2000x1.Broadcasts S2000x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S2000x64 : S1x64.Broadcasts S2000x64
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x64_d1_w32 : S1x64.Iotas .tc 32 [1]
  natLt_1_32 : 1 < 32
  reducesTo_S2x64x8_S64x8_d0 : S2x64x8.ReducesTo [0] S64x8
  bcast_S_S200000 : S_.BroadcastsInDim S200000 (![] : Fin 0 → Fin S200000.rank)
  bcast_S_S64 : S_.BroadcastsInDim S64 (![] : Fin 0 → Fin S64.rank)
  bcast_S200000_S200000x1_0 : S200000.BroadcastsInDim S200000x1 (![0] : Fin 1 → Fin S200000x1.rank)
  bcast_S64_S64x1_0 : S64.BroadcastsInDim S64x1 (![0] : Fin 1 → Fin S64x1.rank)
  bcast_S64x1_S64x8_0_1 : S64x1.BroadcastsInDim S64x8 (![0, 1] : Fin 2 → Fin S64x8.rank)
  reducesTo_S64x8_S64_d1 : S64x8.ReducesTo [1] S64
  bcast_S_S64x1 : S_.BroadcastsInDim S64x1 (![] : Fin 0 → Fin S64x1.rank)
  shapeCasts_S64x1_S64x1x1 : S64x1.ShapeCasts S64x1x1
  bcast_S_S64x1x1 : S_.BroadcastsInDim S64x1x1 (![] : Fin 0 → Fin S64x1x1.rank)
  bcast_S1_S1x1x1_2 : S1.BroadcastsInDim S1x1x1 (![2] : Fin 1 → Fin S1x1x1.rank)
  bcast_S1x1x1_S64x1x1_0_1_2 : S1x1x1.BroadcastsInDim S64x1x1 (![0, 1, 2] : Fin 3 → Fin S64x1x1.rank)
  reducesTo_S64x1x1_S64x1_d2 : S64x1x1.ReducesTo [2] S64x1
  reducesTo_S64x1_S_d0_1 : S64x1.ReducesTo [0, 1] S_
  dot_S2000x1000_S1000x256_S2000x256_1_0_0_1_n_n_wf : DotDims.WF S2000x1000 S1000x256 S2000x256 [1] [0] [0] [1] [] []
  dot_S2000x256_S256x256_S2000x256_1_0_0_1_n_n_wf : DotDims.WF S2000x256 S256x256 S2000x256 [1] [0] [0] [1] [] []
  dot_S2000x256_S256x32_S2000x32_1_0_0_1_n_n_wf : DotDims.WF S2000x256 S256x32 S2000x32 [1] [0] [0] [1] [] []
  dot_S2000x32_S32x64_S2000x64_1_0_0_1_n_n_wf : DotDims.WF S2000x32 S32x64 S2000x64 [1] [0] [0] [1] [] []
  dot_S2000x64_S64x8_S2000x8_1_0_0_1_n_n_wf : DotDims.WF S2000x64 S64x8 S2000x8 [1] [0] [0] [1] [] []
  dot_S2000x64_S2000x8_S64x8_0_0_1_1_n_n_wf : DotDims.WF S2000x64 S2000x8 S64x8 [0] [0] [1] [1] [] []
  scatter_S64_S200000x1_S200000_n_0_0_1_wf : ScatterDims.WF S64 S200000x1 S200000 [] [0] [0] 1
  gather_S64x8_S64x1x1_S64x1_n_1_0_0_1_2_11_wf : GatherDims.WF S64x8 S64x1x1 S64x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1000.size a ≤ S200000x1000.size a
  hwx0_0 : ∀ i : grid0.Coords, EltTy.bits .f32 = 32 ∨ (Rect.block (s := S200000x1000) S2000x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S200000x1.size a
  hwx0_1 : ∀ i : grid0.Coords, EltTy.bits .i32 = 32 ∨ (Rect.block (s := S200000x1) S2000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S1000x256.size a
  hwx0_2 : ∀ i : grid0.Coords, EltTy.bits .f32 = 32 ∨ (Rect.block (s := S1000x256) S1000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x32.size a ≤ S256x32.size a
  hwx0_6 : ∀ i : grid0.Coords, EltTy.bits .f32 = 32 ∨ (Rect.block (s := S256x32) S256x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x64.size a ≤ S32x64.size a
  hwx0_8 : ∀ i : grid0.Coords, EltTy.bits .f32 = 32 ∨ (Rect.block (s := S32x64) S32x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x8.size a ≤ S64x8.size a
  hwx0_10 : ∀ i : grid0.Coords, EltTy.bits .f32 = 32 ∨ (Rect.block (s := S64x8) S64x8.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x64x8.size a ≤ S2x64x8.size a
  hwx0_11 : ∀ i : grid0.Coords, EltTy.bits .f32 = 32 ∨ (Rect.block (s := S2x64x8) S1x64x8.size (cc0_transform_11 i) (hinb0_11 i)).WholeWords (EltTy.packing .f32)

variable [Facts₀]

def dot_S2000x1000_S1000x256_S2000x256_1_0_0_1_n_n : DotDims S2000x1000 S1000x256 S2000x256 where
  lhsContracting := [1]
  rhsContracting := [0]
  lhsNonContracting := [0]
  rhsNonContracting := [1]
  lhsBatch := []
  rhsBatch := []
  wf := dot_S2000x1000_S1000x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x32_S2000x32_1_0_0_1_n_n : DotDims S2000x256 S256x32 S2000x32 where
  lhsContracting := [1]
  rhsContracting := [0]
  lhsNonContracting := [0]
  rhsNonContracting := [1]
  lhsBatch := []
  rhsBatch := []
  wf := dot_S2000x256_S256x32_S2000x32_1_0_0_1_n_n_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def dot_S2000x64_S64x8_S2000x8_1_0_0_1_n_n : DotDims S2000x64 S64x8 S2000x8 where
  lhsContracting := [1]
  rhsContracting := [0]
  lhsNonContracting := [0]
  rhsNonContracting := [1]
  lhsBatch := []
  rhsBatch := []
  wf := dot_S2000x64_S64x8_S2000x8_1_0_0_1_n_n_wf
def dot_S2000x64_S2000x8_S64x8_0_0_1_1_n_n : DotDims S2000x64 S2000x8 S64x8 where
  lhsContracting := [0]
  rhsContracting := [0]
  lhsNonContracting := [1]
  rhsNonContracting := [1]
  lhsBatch := []
  rhsBatch := []
  wf := dot_S2000x64_S2000x8_S64x8_0_0_1_1_n_n_wf
def scatter_S64_S200000x1_S200000_n_0_0_1 : ScatterDims S64 S200000x1 S200000 where
  updateWindowDims := []
  insertedWindowDims := [0]
  scatterDimsToOperandDims := [0]
  indexVectorDim := 1
  wf := scatter_S64_S200000x1_S200000_n_0_0_1_wf
def gather_S64x8_S64x1x1_S64x1_n_1_0_0_1_2_11 : GatherDims S64x8 S64x1x1 S64x1 where
  offsetDims := []
  collapsedSliceDims := [1]
  operandBatchingDims := [0]
  startIndicesBatchingDims := [0]
  startIndexMap := [1]
  indexVectorDim := 2
  sliceSizes := ![1, 1]
  wf := gather_S64x8_S64x1x1_S64x1_n_1_0_0_1_2_11_wf

abbrev win0_0 : Pipeline.Window sig grid0 :=
  Pipeline.Window.ofSpec (Memref.whole main_arg0) S2000x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1000x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S32x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S64x8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1x64x8.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S200000x1000 : Shape := ⟨2, ![200000, 1000]⟩
abbrev S64 : Shape := ⟨1, ![64]⟩
abbrev S200000 : Shape := ⟨1, ![200000]⟩
abbrev S256x1000 : Shape := ⟨2, ![256, 1000]⟩
abbrev S256 : Shape := ⟨1, ![256]⟩
abbrev S256x256 : Shape := ⟨2, ![256, 256]⟩
abbrev S32x256 : Shape := ⟨2, ![32, 256]⟩
abbrev S32 : Shape := ⟨1, ![32]⟩
abbrev S64x32 : Shape := ⟨2, ![64, 32]⟩
abbrev S8x64 : Shape := ⟨2, ![8, 64]⟩
abbrev S1000x256 : Shape := ⟨2, ![1000, 256]⟩
abbrev S200000x256 : Shape := ⟨2, ![200000, 256]⟩
abbrev S1x256 : Shape := ⟨2, ![1, 256]⟩
abbrev S_ : Shape := ⟨0, ![]⟩
abbrev S256x32 : Shape := ⟨2, ![256, 32]⟩
abbrev S200000x32 : Shape := ⟨2, ![200000, 32]⟩
abbrev S1x32 : Shape := ⟨2, ![1, 32]⟩
abbrev S200000x1 : Shape := ⟨2, ![200000, 1]⟩
abbrev S32x64 : Shape := ⟨2, ![32, 64]⟩
abbrev S200000x64 : Shape := ⟨2, ![200000, 64]⟩
abbrev S1x64 : Shape := ⟨2, ![1, 64]⟩
abbrev S64x8 : Shape := ⟨2, ![64, 8]⟩
abbrev S200000x8 : Shape := ⟨2, ![200000, 8]⟩
abbrev S64x1 : Shape := ⟨2, ![64, 1]⟩
abbrev S64x1x1 : Shape := ⟨3, ![64, 1, 1]⟩
abbrev S1 : Shape := ⟨1, ![1]⟩
abbrev S1x1x1 : Shape := ⟨3, ![1, 1, 1]⟩

abbrev nBuf : Space → Nat
  | .hbm => 131
  | .vmem => 0
  | .smem => 0
  | _ => 0

abbrev hbmTy0_0 (i : Nat) : BufTy := match i % 128 with
  | 0 => ⟨S200000x1000, .f32⟩
  | 1 => ⟨S64, .i32⟩
  | 2 => ⟨S200000, .i32⟩
  | 3 => ⟨S256x1000, .f32⟩
  | 4 => ⟨S256, .f32⟩
  | 5 => ⟨S256x256, .f32⟩
  | 6 => ⟨S256, .f32⟩
  | 7 => ⟨S32x256, .f32⟩
  | 8 => ⟨S32, .f32⟩
  | 9 => ⟨S64x32, .f32⟩
  | 10 => ⟨S8x64, .f32⟩
  | 11 => ⟨S1000x256, .f32⟩
  | 12 => ⟨S200000x256, .f32⟩
  | 13 => ⟨S1x256, .f32⟩
  | 14 => ⟨S200000x256, .f32⟩
  | 15 => ⟨S200000x256, .f32⟩
  | 16 => ⟨S_, .f32⟩
  | 17 => ⟨S200000x256, .f32⟩
  | 18 => ⟨S200000x256, .i1⟩
  | 19 => ⟨S_, .f32⟩
  | 20 => ⟨S200000x256, .f32⟩
  | 21 => ⟨S200000x256, .f32⟩
  | 22 => ⟨S200000x256, .f32⟩
  | 23 => ⟨S256x256, .f32⟩
  | 24 => ⟨S200000x256, .f32⟩
  | 25 => ⟨S1x256, .f32⟩
  | 26 => ⟨S200000x256, .f32⟩
  | 27 => ⟨S200000x256, .f32⟩
  | 28 => ⟨S_, .f32⟩
  | 29 => ⟨S200000x256, .f32⟩
  | 30 => ⟨S200000x256, .i1⟩
  | 31 => ⟨S_, .f32⟩
  | 32 => ⟨S200000x256, .f32⟩
  | 33 => ⟨S200000x256, .f32⟩
  | 34 => ⟨S200000x256, .f32⟩
  | 35 => ⟨S256x32, .f32⟩
  | 36 => ⟨S200000x32, .f32⟩
  | 37 => ⟨S1x32, .f32⟩
  | 38 => ⟨S200000x32, .f32⟩
  | 39 => ⟨S200000x32, .f32⟩
  | 40 => ⟨S_, .f32⟩
  | 41 => ⟨S200000x32, .f32⟩
  | 42 => ⟨S200000x32, .i1⟩
  | 43 => ⟨S_, .f32⟩
  | 44 => ⟨S200000x32, .f32⟩
  | 45 => ⟨S200000x32, .f32⟩
  | 46 => ⟨S200000x32, .f32⟩
  | 47 => ⟨S200000x32, .f32⟩
  | 48 => ⟨S_, .f32⟩
  | 49 => ⟨S200000, .f32⟩
  | 50 => ⟨S200000x1, .f32⟩
  | 51 => ⟨S64x32, .f32⟩
  | 52 => ⟨S_, .f32⟩
  | 53 => ⟨S64, .f32⟩
  | 54 => ⟨S32x64, .f32⟩
  | 55 => ⟨S200000x64, .f32⟩
  | 56 => ⟨S_, .f32⟩
  | 57 => ⟨S200000x64, .f32⟩
  | 58 => ⟨S200000x64, .f32⟩
  | 59 => ⟨S200000x64, .f32⟩
  | 60 => ⟨S200000x64, .f32⟩
  | 61 => ⟨S1x64, .f32⟩
  | 62 => ⟨S200000x64, .f32⟩
  | 63 => ⟨S200000x64, .f32⟩
  | 64 => ⟨S_, .f32⟩
  | 65 => ⟨S200000x64, .f32⟩
  | 66 => ⟨S200000x64, .f32⟩
  | 67 => ⟨S_, .f32⟩
  | 68 => ⟨S200000x64, .f32⟩
  | 69 => ⟨S200000x64, .f32⟩
  | 70 => ⟨S64x8, .f32⟩
  | 71 => ⟨S200000x8, .f32⟩
  | 72 => ⟨S_, .f32⟩
  | 73 => ⟨S64x8, .f32⟩
  | 74 => ⟨S200000x1, .i32⟩
  | 75 => ⟨S64x8, .f32⟩
  | 76 => ⟨S_, .f32⟩
  | 77 => ⟨S200000, .f32⟩
  | 78 => ⟨S_, .f32⟩
  | 79 => ⟨S64, .f32⟩
  | 80 => ⟨S200000x1, .i32⟩
  | 81 => ⟨S64, .f32⟩
  | 82 => ⟨S_, .f32⟩
  | 83 => ⟨S64, .f32⟩
  | 84 => ⟨S64, .f32⟩
  | 85 => ⟨S64x1, .f32⟩
  | 86 => ⟨S64x8, .f32⟩
  | 87 => ⟨S64x8, .f32⟩
  | 88 => ⟨S_, .f32⟩
  | 89 => ⟨S64, .f32⟩
  | 90 => ⟨S_, .f32⟩
  | 91 => ⟨S64, .f32⟩
  | 92 => ⟨S64, .f32⟩
  | 93 => ⟨S64x1, .f32⟩
  | 94 => ⟨S64x8, .f32⟩
  | 95 => ⟨S64x8, .f32⟩
  | 96 => ⟨S64x8, .f32⟩
  | 97 => ⟨S_, .f32⟩
  | 98 => ⟨S64, .f32⟩
  | 99 => ⟨S64x1, .f32⟩
  | 100 => ⟨S64x1, .f32⟩
  | 101 => ⟨S64x8, .f32⟩
  | 102 => ⟨S64x8, .f32⟩
  | 103 => ⟨S64x1, .i32⟩
  | 104 => ⟨S_, .i32⟩
  | 105 => ⟨S64x1, .i32⟩
  | 106 => ⟨S64x1, .i1⟩
  | 107 => ⟨S_, .i32⟩
  | 108 => ⟨S64x1, .i32⟩
  | 109 => ⟨S64x1, .i32⟩
  | 110 => ⟨S64x1, .i32⟩
  | 111 => ⟨S64x1x1, .i32⟩
  | 112 => ⟨S1, .i32⟩
  | 113 => ⟨S_, .i32⟩
  | 114 => ⟨S64x1x1, .i32⟩
  | 115 => ⟨S64x1x1, .i1⟩
  | 116 => ⟨S1x1x1, .i32⟩
  | 117 => ⟨S64x1x1, .i32⟩
  | 118 => ⟨S64x1x1, .i1⟩
  | 119 => ⟨S64x1x1, .i1⟩
  | 120 => ⟨S_, .i1⟩
  | 121 => ⟨S64x1, .i1⟩
  | 122 => ⟨S64x1, .f32⟩
  | 123 => ⟨S_, .f32⟩
  | 124 => ⟨S64x1, .f32⟩
  | 125 => ⟨S64x1, .f32⟩
  | 126 => ⟨S_, .f32⟩
  | 127 => ⟨S_, .f32⟩
  | _ => ⟨S200000x1000, .f32⟩

abbrev hbmTy0_1 (i : Nat) : BufTy := match i % 128 with
  | 0 => ⟨S_, .f32⟩
  | 1 => ⟨S_, .f32⟩
  | 2 => ⟨S_, .f32⟩
  | _ => ⟨S200000x1000, .f32⟩

abbrev hbmTy (i : Nat) : BufTy := match i / 128 with
  | 0 => hbmTy0_0 i
  | 1 => hbmTy0_1 i
  | _ => ⟨S200000x1000, .f32⟩

abbrev bufTy : (tb : Table) → Fin (tcTables nBuf tb) → BufTy
  | .hbm, ⟨i, _⟩ => hbmTy i
  | _, _ => ⟨S200000x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_cst_0 : Ref sig .tc := ⟨.hbm, 31, rfl⟩
abbrev main_call1_v2 : Ref sig .tc := ⟨.hbm, 32, rfl⟩
abbrev main_call1_v3 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_call2_cst : Ref sig .tc := ⟨.hbm, 40, rfl⟩
abbrev main_call2_v0 : Ref sig .tc := ⟨.hbm, 41, rfl⟩
abbrev main_call2_v1 : Ref sig .tc := ⟨.hbm, 42, rfl⟩
abbrev main_call2_cst_0 : Ref sig .tc := ⟨.hbm, 43, rfl⟩
abbrev main_call2_v2 : Ref sig .tc := ⟨.hbm, 44, rfl⟩
abbrev main_call2_v3 : Ref sig .tc := ⟨.hbm, 45, rfl⟩
abbrev main_v17 : Ref sig .tc := ⟨.hbm, 46, rfl⟩
abbrev main_v18 : Ref sig .tc := ⟨.hbm, 47, rfl⟩
abbrev main_cst : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_0 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_1 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_2 : Ref sig .tc := ⟨.hbm, 64, rfl⟩
abbrev main_v32 : Ref sig .tc := ⟨.hbm, 65, rfl⟩
abbrev main_v33 : Ref sig .tc := ⟨.hbm, 66, rfl⟩
abbrev main_cst_3 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_4 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_5 : Ref sig .tc := ⟨.hbm, 76, rfl⟩
abbrev main_v41 : Ref sig .tc := ⟨.hbm, 77, rfl⟩
abbrev main_cst_6 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_7 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_call3_cst : Ref sig .tc := ⟨.hbm, 88, rfl⟩
abbrev main_call3_v0 : Ref sig .tc := ⟨.hbm, 89, rfl⟩
abbrev main_call3_cst_0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_v6 : Ref sig .tc := ⟨.hbm, 96, rfl⟩
abbrev main_call3_cst_1 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_v50 : Ref sig .tc := ⟨.hbm, 102, rfl⟩
abbrev main_v51 : Ref sig .tc := ⟨.hbm, 103, rfl⟩
abbrev main_call4_c : Ref sig .tc := ⟨.hbm, 104, rfl⟩
abbrev main_call4_v0 : Ref sig .tc := ⟨.hbm, 105, rfl⟩
abbrev main_call4_v1 : Ref sig .tc := ⟨.hbm, 106, rfl⟩
abbrev main_call4_c_0 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_c_1 : Ref sig .tc := ⟨.hbm, 112, rfl⟩
abbrev main_call4_c_2 : Ref sig .tc := ⟨.hbm, 113, rfl⟩
abbrev main_call4_v6 : Ref sig .tc := ⟨.hbm, 114, rfl⟩
abbrev main_call4_v7 : Ref sig .tc := ⟨.hbm, 115, rfl⟩
abbrev main_call4_v8 : Ref sig .tc := ⟨.hbm, 116, rfl⟩
abbrev main_call4_v9 : Ref sig .tc := ⟨.hbm, 117, rfl⟩
abbrev main_call4_v10 : Ref sig .tc := ⟨.hbm, 118, rfl⟩
abbrev main_call4_v11 : Ref sig .tc := ⟨.hbm, 119, rfl⟩
abbrev main_call4_c_3 : Ref sig .tc := ⟨.hbm, 120, rfl⟩
abbrev main_call4_v12 : Ref sig .tc := ⟨.hbm, 121, rfl⟩
abbrev main_call4_v13 : Ref sig .tc := ⟨.hbm, 122, rfl⟩
abbrev main_call4_cst : Ref sig .tc := ⟨.hbm, 123, rfl⟩
abbrev main_call4_v14 : Ref sig .tc := ⟨.hbm, 124, rfl⟩
abbrev main_v52 : Ref sig .tc := ⟨.hbm, 125, rfl⟩
abbrev main_cst_8 : Ref sig .tc := ⟨.hbm, 126, rfl⟩
abbrev main_v53 : Ref sig .tc := ⟨.hbm, 127, rfl⟩
abbrev main_cst_9 : Ref sig .tc := ⟨.hbm, 128, rfl⟩
abbrev main_v54 : Ref sig .tc := ⟨.hbm, 129, rfl⟩
abbrev main_v55 : Ref sig .tc := ⟨.hbm, 130, rfl⟩

abbrev nD : Nat := 1
abbrev τ : Topo := Topo.v7x

variable {F : FTy → Type} [FloatOps F]

class Facts₀ : Prop where
  transposes_S256x1000_S1000x256_1_0 : S256x1000.Transposes [1, 0] S1000x256
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  transposes_S256x256_S256x256_1_0 : S256x256.Transposes [1, 0] S256x256
  transposes_S32x256_S256x32_1_0 : S32x256.Transposes [1, 0] S256x32
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S200000x32 : S_.BroadcastsInDim S200000x32 (![] : Fin 0 → Fin S200000x32.rank)
  reducesTo_S200000x32_S200000_d1 : S200000x32.ReducesTo [1] S200000
  h_S_ : 0 < S_.numel
  bcast_S200000_S200000x1_0 : S200000.BroadcastsInDim S200000x1 (![0] : Fin 1 → Fin S200000x1.rank)
  reducesTo_S64x32_S64_d1 : S64x32.ReducesTo [1] S64
  transposes_S64x32_S32x64_1_0 : S64x32.Transposes [1, 0] S32x64
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  transposes_S8x64_S64x8_1_0 : S8x64.Transposes [1, 0] S64x8
  bcast_S_S64x8 : S_.BroadcastsInDim S64x8 (![] : Fin 0 → Fin S64x8.rank)
  bcast_S_S200000 : S_.BroadcastsInDim S200000 (![] : Fin 0 → Fin S200000.rank)
  bcast_S_S64 : S_.BroadcastsInDim S64 (![] : Fin 0 → Fin S64.rank)
  bcast_S64_S64x1_0 : S64.BroadcastsInDim S64x1 (![0] : Fin 1 → Fin S64x1.rank)
  bcast_S64x1_S64x8_0_1 : S64x1.BroadcastsInDim S64x8 (![0, 1] : Fin 2 → Fin S64x8.rank)
  reducesTo_S64x8_S64_d1 : S64x8.ReducesTo [1] S64
  bcast_S_S64x1 : S_.BroadcastsInDim S64x1 (![] : Fin 0 → Fin S64x1.rank)
  shapeCasts_S64x1_S64x1x1 : S64x1.ShapeCasts S64x1x1
  bcast_S_S64x1x1 : S_.BroadcastsInDim S64x1x1 (![] : Fin 0 → Fin S64x1x1.rank)
  bcast_S1_S1x1x1_2 : S1.BroadcastsInDim S1x1x1 (![2] : Fin 1 → Fin S1x1x1.rank)
  bcast_S1x1x1_S64x1x1_0_1_2 : S1x1x1.BroadcastsInDim S64x1x1 (![0, 1, 2] : Fin 3 → Fin S64x1x1.rank)
  reducesTo_S64x1x1_S64x1_d2 : S64x1x1.ReducesTo [2] S64x1
  reducesTo_S64x1_S_d0_1 : S64x1.ReducesTo [0, 1] S_
  dot_S200000x1000_S1000x256_S200000x256_1_0_0_1_n_n_wf : DotDims.WF S200000x1000 S1000x256 S200000x256 [1] [0] [0] [1] [] []
  dot_S200000x256_S256x256_S200000x256_1_0_0_1_n_n_wf : DotDims.WF S200000x256 S256x256 S200000x256 [1] [0] [0] [1] [] []
  dot_S200000x256_S256x32_S200000x32_1_0_0_1_n_n_wf : DotDims.WF S200000x256 S256x32 S200000x32 [1] [0] [0] [1] [] []
  dot_S200000x32_S32x64_S200000x64_1_0_0_1_n_n_wf : DotDims.WF S200000x32 S32x64 S200000x64 [1] [0] [0] [1] [] []
  dot_S200000x64_S64x8_S200000x8_1_0_0_1_n_n_wf : DotDims.WF S200000x64 S64x8 S200000x8 [1] [0] [0] [1] [] []
  scatter_S64x8_S200000x1_S200000x8_1_0_0_1_wf : ScatterDims.WF S64x8 S200000x1 S200000x8 [1] [0] [0] 1
  scatter_S64_S200000x1_S200000_n_0_0_1_wf : ScatterDims.WF S64 S200000x1 S200000 [] [0] [0] 1
  gather_S64x8_S64x1x1_S64x1_n_1_0_0_1_2_11_wf : GatherDims.WF S64x8 S64x1x1 S64x1 [] [1] [0] [1] [0] 2 ![1, 1]

variable [Facts₀]

def dot_S200000x1000_S1000x256_S200000x256_1_0_0_1_n_n : DotDims S200000x1000 S1000x256 S200000x256 where
  lhsContracting := [1]
  rhsContracting := [0]
  lhsNonContracting := [0]
  rhsNonContracting := [1]
  lhsBatch := []
  rhsBatch := []
  wf := dot_S200000x1000_S1000x256_S200000x256_1_0_0_1_n_n_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def dot_S200000x256_S256x32_S200000x32_1_0_0_1_n_n : DotDims S200000x256 S256x32 S200000x32 where
  lhsContracting := [1]
  rhsContracting := [0]
  lhsNonContracting := [0]
  rhsNonContracting := [1]
  lhsBatch := []
  rhsBatch := []
  wf := dot_S200000x256_S256x32_S200000x32_1_0_0_1_n_n_wf
def dot_S200000x32_S32x64_S200000x64_1_0_0_1_n_n : DotDims S200000x32 S32x64 S200000x64 where
  lhsContracting := [1]
  rhsContracting := [0]
  lhsNonContracting := [0]
  rhsNonContracting := [1]
  lhsBatch := []
  rhsBatch := []
  wf := dot_S200000x32_S32x64_S200000x64_1_0_0_1_n_n_wf
def dot_S200000x64_S64x8_S200000x8_1_0_0_1_n_n : DotDims S200000x64 S64x8 S200000x8 where
  lhsContracting := [1]
  rhsContracting := [0]
  lhsNonContracting := [0]
  rhsNonContracting := [1]
  lhsBatch := []
  rhsBatch := []
  wf := dot_S200000x64_S64x8_S200000x8_1_0_0_1_n_n_wf
def scatter_S64x8_S200000x1_S200000x8_1_0_0_1 : ScatterDims S64x8 S200000x1 S200000x8 where
  updateWindowDims := [1]
  insertedWindowDims := [0]
  scatterDimsToOperandDims := [0]
  indexVectorDim := 1
  wf := scatter_S64x8_S200000x1_S200000x8_1_0_0_1_wf
def scatter_S64_S200000x1_S200000_n_0_0_1 : ScatterDims S64 S200000x1 S200000 where
  updateWindowDims := []
  insertedWindowDims := [0]
  scatterDimsToOperandDims := [0]
  indexVectorDim := 1
  wf := scatter_S64_S200000x1_S200000_n_0_0_1_wf
def gather_S64x8_S64x1x1_S64x1_n_1_0_0_1_2_11 : GatherDims S64x8 S64x1x1 S64x1 where
  offsetDims := []
  collapsedSliceDims := [1]
  operandBatchingDims := [0]
  startIndicesBatchingDims := [0]
  startIndexMap := [1]
  indexVectorDim := 2
  sliceSizes := ![1, 1]
  wf := gather_S64x8_S64x1x1_S64x1_n_1_0_0_1_2_11_wf

class Facts : Prop extends Facts₀ where

variable [Facts]
-- ==== Proof.KernelPieces.lean ====
/-
  What one grid point's body leaves in the bag-sum block it carries, as a value.

  The body computes the cells' class scores `S` (2000 × 8) from the point's block of `x`, the 0-or-1 table `H`
  (2000 × 64) of which cell belongs to which bag, and adds `Hᵀ · S` (64 × 8) to the block: at the first point of a
  core's run to the zero block it has just stored, at every later point to what the point before left.
-/
import proofs.«421852_j28621662061167_3_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

/-- The zero offsets of a block of rank one, two, three are the constant zero. -/
private theorem hz1 : (![0] : Fin 1 → Nat) = fun _ => 0 := funext fun a => by fin_cases a <;> rfl
private theorem hz2 : (![0, 0] : Fin 2 → Nat) = fun _ => 0 := funext fun a => by fin_cases a <;> rfl
private theorem hz3 : (![0, 0, 0] : Fin 3 → Nat) = fun _ => 0 := funext fun a => by fin_cases a <;> rfl

/-- The block the body stores, from the point's input blocks and the block's contents `acc` before the sum. -/
abbrev stepBlock (x0 : Vec F S2000x1000 .f32) (x1 : Vec F S2000x1 .i32) (x2 : Vec F S1000x256 .f32) (x3 : Vec F S256 .f32) (x4 : Vec F S256x256 .f32) (x5 : Vec F S256 .f32) (x6 : Vec F S256x32 .f32) (x7 : Vec F S32 .f32) (x8 : Vec F S32x64 .f32) (x9 : Vec F S64 .f32) (x10 : Vec F S64x8 .f32) (acc : Vec F S1x64x8 .f32) : Vec F S1x64x8 .f32 :=
  k0_pay1 (k0_pay4 x1) (k0_pay5 (k0_pay3 x0 x2 x3 x4 x5 x6) x7 x8 x9 x10) acc

/-- A later point of a core's run adds to what the point before left. -/
theorem out_B (c : Dev nD) (i : grid0.Coords) (arg2 : Memref sig .tc .vmem S2000x1000 .f32) (harg2 : arg2.IsWhole) (arg3 : Memref sig .tc .vmem S2000x1 .i32) (harg3 : arg3.IsWhole) (arg4 : Memref sig .tc .vmem S1000x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S256x32 .f32) (harg8 : arg8.IsWhole) (arg9 : Memref sig .tc .vmem S32 .f32) (harg9 : arg9.IsWhole) (arg10 : Memref sig .tc .vmem S32x64 .f32) (harg10 : arg10.IsWhole) (arg11 : Memref sig .tc .vmem S64 .f32) (harg11 : arg11.IsWhole) (arg12 : Memref sig .tc .vmem S64x8 .f32) (harg12 : arg12.IsWhole) (arg13 : Memref sig .tc .vmem S1x64x8 .f32) (harg13 : arg13.IsWhole) (hc0 : ¬cond0_0 i)
    (x0 : Vec F S2000x1000 .f32) (x1 : Vec F S2000x1 .i32) (x2 : Vec F S1000x256 .f32) (x3 : Vec F S256 .f32) (x4 : Vec F S256x256 .f32) (x5 : Vec F S256 .f32) (x6 : Vec F S256x32 .f32) (x7 : Vec F S32 .f32) (x8 : Vec F S32x64 .f32) (x9 : Vec F S64 .f32) (x10 : Vec F S64x8 .f32) (xo11 : Vec F S1x64x8 .f32) :
    out0_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 xo11 = stepBlock x0 x1 x2 x3 x4 x5 x6 x7 x8 x9 x10 xo11 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 xo11)]
  unfold kernelRun0_B
  dsimp only
  sl_unfold_words
  rw [View.canon_unit_zero (S := S1x64x8) hz3]
  simp only [View.readAt_eq_ld, harg2.read_unread, harg3.read_unread, harg4.read_unread, harg5.read_unread,
    harg6.read_unread, harg7.read_unread, harg8.read_unread, harg9.read_unread, harg10.read_unread, harg11.read_unread,
    harg12.read_unread, harg13.read_unread, View.ld_unit_zero (S := S2000x1000) hz2, View.ld_unit_zero (S := S2000x1) hz2,
    View.ld_unit_zero (S := S1000x256) hz2, View.ld_unit_zero (S := S256) hz1, View.ld_unit_zero (S := S256x256) hz2,
    View.ld_unit_zero (S := S256x32) hz2, View.ld_unit_zero (S := S32) hz1, View.ld_unit_zero (S := S32x64) hz2,
    View.ld_unit_zero (S := S64) hz1, View.ld_unit_zero (S := S64x8) hz2, View.ld_unit_zero (S := S1x64x8) hz3]

/-- The first point of a core's run adds to the zero block it has just stored. -/
theorem out_A (c : Dev nD) (i : grid0.Coords) (arg2 : Memref sig .tc .vmem S2000x1000 .f32) (harg2 : arg2.IsWhole) (arg3 : Memref sig .tc .vmem S2000x1 .i32) (harg3 : arg3.IsWhole) (arg4 : Memref sig .tc .vmem S1000x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S256x32 .f32) (harg8 : arg8.IsWhole) (arg9 : Memref sig .tc .vmem S32 .f32) (harg9 : arg9.IsWhole) (arg10 : Memref sig .tc .vmem S32x64 .f32) (harg10 : arg10.IsWhole) (arg11 : Memref sig .tc .vmem S64 .f32) (harg11 : arg11.IsWhole) (arg12 : Memref sig .tc .vmem S64x8 .f32) (harg12 : arg12.IsWhole) (arg13 : Memref sig .tc .vmem S1x64x8 .f32) (harg13 : arg13.IsWhole) (hc0 : cond0_0 i)
    (x0 : Vec F S2000x1000 .f32) (x1 : Vec F S2000x1 .i32) (x2 : Vec F S1000x256 .f32) (x3 : Vec F S256 .f32) (x4 : Vec F S256x256 .f32) (x5 : Vec F S256 .f32) (x6 : Vec F S256x32 .f32) (x7 : Vec F S32 .f32) (x8 : Vec F S32x64 .f32) (x9 : Vec F S64 .f32) (x10 : Vec F S64x8 .f32) :
    out0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 = stepBlock x0 x1 x2 x3 x4 x5 x6 x7 x8 x9 x10 (k0_pay2 (F := F)) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10)]
  unfold kernelRun0_A
  dsimp only
  sl_unfold_words
  rw [View.canon_cons_unit_zero (S := S1x64x8) hz3, View.readCov_unit_zero (S := S1x64x8) _ hz3]
  simp only [View.readAt_eq_ld, harg2.read_unread, harg3.read_unread, harg4.read_unread, harg5.read_unread,
    harg6.read_unread, harg7.read_unread, harg8.read_unread, harg9.read_unread, harg10.read_unread, harg11.read_unread,
    harg12.read_unread, View.ld_unit_zero (S := S2000x1000) hz2, View.ld_unit_zero (S := S2000x1) hz2,
    View.ld_unit_zero (S := S1000x256) hz2, View.ld_unit_zero (S := S256) hz1, View.ld_unit_zero (S := S256x256) hz2,
    View.ld_unit_zero (S := S256x32) hz2, View.ld_unit_zero (S := S32) hz1, View.ld_unit_zero (S := S32x64) hz2,
    View.ld_unit_zero (S := S64) hz1, View.ld_unit_zero (S := S64x8) hz2]

end Cert.KernelIdeal.Pieces

end
-- ==== Proof.Spec.lean ====
/-
  The mathematics both programs compute, one cell (one row of `x`) at a time, on the extended reals.

  A cell's feature row `xr` (1000 numbers) goes through three dense layers with a leaky rectifier
  (`dense`: the row times a weight matrix given TRANSPOSED, [inputs, outputs], plus a bias, then
  `act`), giving the embedding `z` (32 numbers); its squared distance to each of 64 prototypes is
  `‖z‖² - 2 z·p + ‖p‖²` with `‖p‖²` given as a table; `inv` is `1 / (that + 1/2)`; the cell's class
  scores are `inv` times the classifier matrix (again transposed, [prototypes, classes]).

  A bag's summed scores add the cells whose segment id is the bag's number: `bagSum`.
-/
import Idealize.ShloMosaic.Lib.ValueIdx
import Idealize.ShloMosaic.PureOps.Ideal.Laws

noncomputable section

namespace Cert.Spec

open Idealize.ShloMosaic Idealize.ShloMosaic.ValueIdx

/-- A matrix and a vector of extended reals over literal extents. -/
abbrev Mat (m n : Nat) : Type := (⟨2, ![m, n]⟩ : Shape).Idx → EReal
abbrev Vct (n : Nat) : Type := (⟨1, ![n]⟩ : Shape).Idx → EReal

/-- The leaky rectifier as both programs spell it: `v` where `v ≥ 0`, else the slope's f32 value times `v`. -/
def act (v : EReal) : EReal :=
  Scalar.select (FloatOps.cmpf (F := Ideal) (φ := .f32) .oge v (Ideal.ofBits .f32 0x00000000#32)) v
    (Ideal.ofBits .f32 0x3C23D70A#32 * v)

/-- One dense layer on one row: output `j` is `act (∑ c, inp c · W[c, j] + b[j])`. -/
def dense {k n : Nat} (inp : Fin k → EReal) (W : Mat k n) (b : Vct n) (j : Fin n) : EReal :=
  act ((∑ c : Fin k, inp c * W (ix2 c j)) + b (ix1 j))

/-- The embedding of one cell. -/
def zrow (xr : Fin 1000 → EReal) (WiT : Mat 1000 256) (bi : Vct 256) (WhT : Mat 256 256) (bh : Vct 256)
    (WzT : Mat 256 32) (bz : Vct 32) : Fin 32 → EReal :=
  dense (dense (dense xr WiT bi) WhT bh) WzT bz

/-- `1 / (‖z‖² - 2 z·p + ‖p‖² + 1/2)` for prototype `p`, the literals at their f32 values. -/
def invrow (z : Fin 32 → EReal) (PT : Mat 32 64) (psq : Vct 64) (p : Fin 64) : EReal :=
  Ideal.div (Ideal.ofBits .f32 0x3F800000#32)
    ((((∑ k : Fin 32, z k * z k) - Ideal.ofBits .f32 0x40000000#32 * (∑ k : Fin 32, z k * PT (ix2 k p)))
      + psq (ix1 p)) + Ideal.ofBits .f32 0x3F000000#32)

/-- The class scores of one cell. -/
def clrow (xr : Fin 1000 → EReal) (WiT : Mat 1000 256) (bi : Vct 256) (WhT : Mat 256 256) (bh : Vct 256)
    (WzT : Mat 256 32) (bz : Vct 32) (PT : Mat 32 64) (psq : Vct 64) (WcT : Mat 64 8) (c : Fin 8) : EReal :=
  ∑ p : Fin 64, invrow (zrow xr WiT bi WhT bh WzT bz) PT psq p * WcT (ix2 p c)

/-- Whether a segment-id word names bag `b`, as a number: 1 or 0. -/
def hot (w : BitVec 32) (b : Fin 64) : EReal := if w = BitVec.ofNat 32 b.val then 1 else 0

end Cert.Spec

end
-- ==== Proof.LibDot.lean ====
/-
  General reading lemmas at the extended reals, over any extents:
  a matrix product into a zero accumulator and a host dot, rows by columns, as a sum over the shared coordinate;
  a product that contracts the FIRST axis of both operands (the transpose of the left one times the right one);
  a sum over `a · b` consecutive naturals as a double sum.
-/
import Idealize.ShloMosaic.Lib.ValueIdx
import Idealize.ShloMosaic.Lib.StackMember
import Idealize.ShloMosaic.PureOps.Ideal.Laws

noncomputable section

namespace Cert.LibDot

open Idealize.ShloMosaic Idealize.ShloMosaic.ValueIdx

/-- A rows-by-columns matrix product into the zero accumulator, read at (a, b): `∑ c, A[a, c] · B[c, b]`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  -- the product into the zero accumulator is the bare sum over the contraction index set, which has one axis of extent k
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand is read at (c, b): its row is the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- The product that contracts the first axis of both operands, read at (a, b): the accumulator there plus
    `∑ c, A[c, a] · B[c, b]`. -/
theorem matmul_colcol_apply {k m n : Nat} {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (acc : FVec Ideal ⟨2, ![m, n]⟩ .f32) (a : Fin m) (b : Fin n) :
    FloatOps.matmul (⟨[0], [0], [1], [1], [], [], w⟩ : DotDims _ _ _) prec A B acc (ix2 a b)
      = acc (ix2 a b) + ∑ c : Fin k, A (ix2 c a) * B (ix2 c b) := by
  -- the accumulator plus the sum over the contraction index set, which has one axis of extent k
  rw [Ideal.matmul_apply,
    ← Equiv.sum_comp (contrEquiv1 (⟨[0], [0], [1], [1], [], [], w⟩ : DotDims _ _ _) k rfl rfl).symm]
  refine congrArg (acc (ix2 a b) + ·) (Finset.sum_congr rfl fun c _ => ?_)
  have hc := contrEquiv1_symm_val
    (⟨[0], [0], [1], [1], [], [], w⟩ : DotDims ⟨2, ![k, m]⟩ ⟨2, ![k, n]⟩ ⟨2, ![m, n]⟩) k rfl rfl c
  -- the left operand is read at (c, a): its row is the contracted coordinate, its column the output's row
  have hl : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact hc
    | ⟨1, _⟩ => simp [DotDims.lhsIdx]; rfl
  -- the right operand is read at (c, b): its row is the contracted coordinate, its column the output's column
  have hr : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- A sum over the first `a · b` naturals is the sum over `q < a` of the sums over `r < b` at `q · b + r`. -/
theorem sum_range_mul {M : Type*} [AddCommMonoid M] (f : ℕ → M) (a b : ℕ) :
    ∑ i ∈ Finset.range (a * b), f i = ∑ q ∈ Finset.range a, ∑ r ∈ Finset.range b, f (q * b + r) := by
  induction a with
  | zero => simp
  | succ a ih =>
    -- the first (a + 1) · b naturals are the first a · b of them followed by the b naturals a · b + r
    rw [Nat.succ_mul, Finset.sum_range_add, Finset.sum_range_succ, ih]

end Cert.LibDot

end
-- ==== Proof.KernelPay3.lean ====
/-
  The body's three dense layers read at an index, on the extended reals: entry (r, j) of the third matrix product
  is the sum over the 256 hidden units of the second layer's output for row `r` of the block of `x` times the
  third weight matrix.
-/
import proofs.«421852_j28621662061167_3_alg».proof.Proof.Gen.KernelIdeal.Skeleton
import proofs.«421852_j28621662061167_3_alg».proof.Proof.Spec
import proofs.«421852_j28621662061167_3_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx
open Cert.KernelIdeal Cert.KernelIdeal.Gen Cert.Spec

/-- One dense layer as the body spells it: the product of the block by the weight matrix into a zero
    accumulator, plus the bias copied into every row, then the leaky rectifier. -/
private def layer {k n : Nat} (A : FVec Ideal ⟨2, ![2000, k]⟩ .f32) (W : FVec Ideal ⟨2, ![k, n]⟩ .f32)
    (b : FVec Ideal ⟨1, ![n]⟩ .f32) (hb : FTy.bits .bf16 < FTy.bits .f32)
    (h₁ : (⟨1, ![n]⟩ : Shape).ShapeCasts ⟨2, ![1, n]⟩)
    (h₂ : (⟨2, ![1, n]⟩ : Shape).Broadcasts ⟨2, ![2000, n]⟩) : FVec Ideal ⟨2, ![2000, n]⟩ .f32 :=
  select
    (cmpf .oge
      (addf (matmul (DotDims.plain 2000 k n) none (truncf .bf16 A hb) (truncf .bf16 W hb)
          (constant ⟨2, ![2000, n]⟩ .f32 0x00000000#32))
        (broadcastTo ⟨2, ![2000, n]⟩ (shapeCast ⟨2, ![1, n]⟩ b h₁) h₂))
      (broadcast ⟨2, ![2000, n]⟩ (Scalar.ofBits .f32 0x00000000#32)))
    (addf (matmul (DotDims.plain 2000 k n) none (truncf .bf16 A hb) (truncf .bf16 W hb)
        (constant ⟨2, ![2000, n]⟩ .f32 0x00000000#32))
      (broadcastTo ⟨2, ![2000, n]⟩ (shapeCast ⟨2, ![1, n]⟩ b h₁) h₂))
    (mulf (broadcast ⟨2, ![2000, n]⟩ (Scalar.ofBits .f32 0x3C23D70A#32))
      (addf (matmul (DotDims.plain 2000 k n) none (truncf .bf16 A hb) (truncf .bf16 W hb)
          (constant ⟨2, ![2000, n]⟩ .f32 0x00000000#32))
        (broadcastTo ⟨2, ![2000, n]⟩ (shapeCast ⟨2, ![1, n]⟩ b h₁) h₂)))

/-- The layer read at (r, j) is the dense layer of row `r` at output `j`. -/
private theorem layer_apply {k n : Nat} (A : FVec Ideal ⟨2, ![2000, k]⟩ .f32) (W : FVec Ideal ⟨2, ![k, n]⟩ .f32)
    (b : FVec Ideal ⟨1, ![n]⟩ .f32) (hb : FTy.bits .bf16 < FTy.bits .f32)
    (h₁ : (⟨1, ![n]⟩ : Shape).ShapeCasts ⟨2, ![1, n]⟩)
    (h₂ : (⟨2, ![1, n]⟩ : Shape).Broadcasts ⟨2, ![2000, n]⟩) (r : Fin 2000) (j : Fin n) :
    layer A W b hb h₁ h₂ (ix2 r j) = dense (fun c => A (ix2 r c)) W b j := by
  have hv : addf (matmul (DotDims.plain 2000 k n) none (truncf .bf16 A hb) (truncf .bf16 W hb)
          (constant ⟨2, ![2000, n]⟩ .f32 0x00000000#32))
        (broadcastTo ⟨2, ![2000, n]⟩ (shapeCast ⟨2, ![1, n]⟩ b h₁) h₂) (ix2 r j)
      = (∑ c : Fin k, A (ix2 r c) * W (ix2 c j)) + b (ix1 j) := by
    rw [addf_apply, broadcastTo_1b_ab_apply, shapeCast_a_1a_apply]
    refine congrArg (· + b (ix1 j)) ?_
    exact Cert.LibDot.matmul_plain_zero_apply none (truncf .bf16 A hb) (truncf .bf16 W hb) r j
  unfold layer dense act
  rw [select_apply, cmpf_apply, mulf_apply, broadcast_apply, broadcast_apply, hv]
  rfl

/-- The three dense layers: row `r` of the embedding block, before the last layer's bias and rectifier
    (the payload ends at the third matrix product). -/
theorem pay3_apply (x0 : Vec Ideal S2000x1000 .f32) (x2 : Vec Ideal S1000x256 .f32) (x3 : Vec Ideal S256 .f32)
    (x4 : Vec Ideal S256x256 .f32) (x5 : Vec Ideal S256 .f32) (x6 : Vec Ideal S256x32 .f32) (r : Fin 2000) (j : Fin 32) :
    k0_pay3 (F := Ideal) x0 x2 x3 x4 x5 x6 (ix2 r j)
      = ∑ c : Fin 256, dense (dense (fun k => x0 (ix2 r k)) x2 x3) x4 x5 c * x6 (ix2 c j) := by
  have e : k0_pay3 (F := Ideal) x0 x2 x3 x4 x5 x6
      = matmul (DotDims.plain 2000 256 32) none
          (truncf .bf16 (layer (layer x0 x2 x3 bitsLt_bf16_f32 shapeCasts_S256_S1x256 broadcasts_S1x256_S2000x256)
            x4 x5 bitsLt_bf16_f32 shapeCasts_S256_S1x256 broadcasts_S1x256_S2000x256) bitsLt_bf16_f32)
          (truncf .bf16 x6 bitsLt_bf16_f32) (constant ⟨2, ![2000, 32]⟩ .f32 0x00000000#32) := by
    unfold k0_pay3
    simp only [shapeCast_self]
    rfl
  rw [e]
  refine (Cert.LibDot.matmul_plain_zero_apply none _ _ r j).trans ?_
  refine Finset.sum_congr rfl fun c _ => ?_
  rw [truncf_apply, truncf_apply, layer_apply]
  refine congrArg (fun f => dense f x4 x5 c * x6 (ix2 c j)) ?_
  funext i
  exact layer_apply x0 x2 x3 _ _ _ r i

end Cert.KernelIdeal.Payload

end
-- ==== Proof.KernelPay5.lean ====
/-
  The body's last stretch read at an index, on the extended reals: from the third matrix product, the bias and
  rectifier give the embedding; its squared norm, its products with the prototypes and their squared norms give the
  shifted squared distances; the reciprocal times the classifier matrix gives the class scores.
-/
import proofs.«421852_j28621662061167_3_alg».proof.Proof.Gen.KernelIdeal.Skeleton
import proofs.«421852_j28621662061167_3_alg».proof.Proof.Spec
import proofs.«421852_j28621662061167_3_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx
open Cert.KernelIdeal Cert.KernelIdeal.Gen Cert.Spec

/-- The product with the prototypes is a plain rows-by-columns product: 2000 × 32 by 32 × 64. -/
private theorem dotProto_eq : dot_S2000x32_S32x64_S2000x64_1_0_0_1_n_n = DotDims.plain 2000 32 64 := rfl

/-- The product with the classifier is a plain rows-by-columns product: 2000 × 64 by 64 × 8. -/
private theorem dotClass_eq : dot_S2000x64_S64x8_S2000x8_1_0_0_1_n_n = DotDims.plain 2000 64 8 := rfl

/-- A vector laid as one row and repeated over `a` rows reads, at (r, j), the vector at j. -/
private theorem rowBcast_apply {a b : ℕ} (x : (⟨1, ![b]⟩ : Shape).Idx → EReal)
    (h1 : (⟨1, ![b]⟩ : Shape).ShapeCasts ⟨2, ![1, b]⟩) (h2 : (⟨2, ![1, b]⟩ : Shape).Broadcasts ⟨2, ![a, b]⟩)
    (r : Fin a) (j : Fin b) :
    broadcastTo ⟨2, ![a, b]⟩ (shapeCast ⟨2, ![1, b]⟩ x h1) h2 (ix2 r j) = x (ix1 j) := by
  rw [broadcastTo_1b_ab_apply, shapeCast_a_1a_apply]

/-- A vector laid as one column and repeated over `b` columns reads, at (r, p), the vector at r. -/
private theorem colBcast_apply {a b : ℕ} (x : (⟨1, ![a]⟩ : Shape).Idx → EReal)
    (h1 : (⟨1, ![a]⟩ : Shape).ShapeCasts ⟨2, ![a, 1]⟩) (h2 : (⟨2, ![a, 1]⟩ : Shape).Broadcasts ⟨2, ![a, b]⟩)
    (r : Fin a) (p : Fin b) :
    broadcastTo ⟨2, ![a, b]⟩ (shapeCast ⟨2, ![a, 1]⟩ x h1) h2 (ix2 r p) = x (ix1 r) := by
  -- the broadcast reads the one column at row r
  refine (broadcastTo_apply _ h2 (ix2 r p) (ix2 r (0 : Fin 1)) fun ax => ?_).trans ?_
  · match ax with
    | ⟨0, _⟩ =>
      show r.val = if a = 1 then 0 else r.val
      split
      · have := r.isLt; omega
      · rfl
    | ⟨1, _⟩ => rfl
  -- and (r, 0) of the column has the row-major position r · 1 + 0 = r
  · refine shapeCast_apply x h1 _ _ ?_
    rw [Shape.rowMajor_val_two, Shape.rowMajor_val_one]
    show r.val = r.val * 1 + 0
    omega

/-- The row sums of a [2000, 32] block: at r, the sum over the 32 columns. -/
private theorem rowSum_apply (v : FVec Ideal S2000x32 .f32) (h : S2000x32.Reduces [1] S2000)
    (hφ : FKind.Formats .f32) (hacc : (0x00000000#32 : BitVec 32) = FKind.add.neutral .f32 hφ) (r : Fin 2000) :
    multiReduction (F := Ideal) .add [1] S2000 v 0x00000000#32 h hφ hacc (ix1 r) = ∑ k : Fin 32, v (ix2 r k) := by
  refine (Ideal.multiReduction_add_single v _ h hφ hacc (ix1 r)).trans ?_
  -- the index with the column k put back beside the row r is (r, k)
  refine Finset.sum_congr rfl fun k _ => congrArg v ?_
  funext c
  match c with
  | ⟨0, _⟩ => exact Fin.ext rfl
  | ⟨1, _⟩ => exact Fin.ext rfl

/-- Row `r` of the class scores from the third product `v36`: the bias and rectifier, the distances, the
    reciprocal, the classifier. -/
theorem pay5_apply (v36 : FVec Ideal S2000x32 .f32) (x7 : Vec Ideal S32 .f32) (x8 : Vec Ideal S32x64 .f32)
    (x9 : Vec Ideal S64 .f32) (x10 : Vec Ideal S64x8 .f32) (r : Fin 2000) (c : Fin 8) :
    k0_pay5 (F := Ideal) v36 x7 x8 x9 x10 (ix2 r c)
      = ∑ p : Fin 64, invrow (fun j => act (v36 (ix2 r j) + x7 (ix1 j))) x8 x9 p * x10 (ix2 p c) := by
  unfold k0_pay5
  -- the class scores: the product of the reciprocals with the classifier, read at (r, c), is a sum over the prototypes
  rw [dotProto_eq, dotClass_eq, truncf_apply]
  refine (Cert.LibDot.matmul_plain_zero_apply none _ _ r c).trans ?_
  refine Finset.sum_congr rfl fun p _ => ?_
  -- the reciprocal at (r, p): the element-wise operations read at the index, the squared norm's column and the
  -- prototype norms' row read at their one coordinate, the product with the prototypes as a sum over the 32 coordinates
  simp only [truncf_apply, shapeCast_self, divf_apply, broadcast_apply, addf_apply, subf_apply, mulf_apply,
    colBcast_apply, rowBcast_apply, select_apply, cmpf_apply, Cert.LibDot.matmul_plain_zero_apply]
  -- the squared norm of row r is the sum over its 32 coordinates
  erw [rowSum_apply]
  simp only [mulf_apply, select_apply, cmpf_apply, addf_apply, broadcast_apply, rowBcast_apply]
  -- both sides are now the same expression in the rectified row
  rfl

end Cert.KernelIdeal.Payload

end
-- ==== Proof.KernelPayload.lean ====
/-
  The body's arithmetic read at an index, on the extended reals.

  Row `r` of the point's class scores is the specification's `clrow` of row `r` of the block of `x`; entry (r, b)
  of the bag table is `hot` of row `r`'s segment word; the stored block at (0, b, c) is the block before plus
  `∑ r, H[r, b] · S[r, c]`; the reset block is zero.
-/
import proofs.«421852_j28621662061167_3_alg».proof.Proof.KernelPay3
import proofs.«421852_j28621662061167_3_alg».proof.Proof.KernelPay5
import proofs.«421852_j28621662061167_3_alg».proof.Proof.Gen.KernelIdeal.Skeleton
import proofs.«421852_j28621662061167_3_alg».proof.Proof.Spec
import proofs.«421852_j28621662061167_3_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx
open Cert.KernelIdeal Cert.KernelIdeal.Gen Cert.Spec

/-- Together: row `r` of the point's class scores is `clrow` of row `r` of the block of `x`. -/
theorem cl_apply (x0 : Vec Ideal S2000x1000 .f32) (x2 : Vec Ideal S1000x256 .f32) (x3 : Vec Ideal S256 .f32)
    (x4 : Vec Ideal S256x256 .f32) (x5 : Vec Ideal S256 .f32) (x6 : Vec Ideal S256x32 .f32) (x7 : Vec Ideal S32 .f32)
    (x8 : Vec Ideal S32x64 .f32) (x9 : Vec Ideal S64 .f32) (x10 : Vec Ideal S64x8 .f32) (r : Fin 2000) (c : Fin 8) :
    k0_pay5 (F := Ideal) (k0_pay3 x0 x2 x3 x4 x5 x6) x7 x8 x9 x10 (ix2 r c)
      = clrow (fun k => x0 (ix2 r k)) x2 x3 x4 x5 x6 x7 x8 x9 x10 c := by
  rw [pay5_apply]
  unfold clrow zrow
  simp only [pay3_apply]
  rfl

/-- The segment column spread over the 64 lanes reads, at (r, b), row `r`'s word. -/
private theorem seg_bcast_apply (x1 : Vec Ideal S2000x1 .i32) (r : Fin 2000) (b : Fin 64) :
    broadcastTo S2000x64 (shapeCast S2000x1 x1 shapeCasts_S2000x1_S2000x1) broadcasts_S2000x1_S2000x64 (ix2 r b)
      = x1 (ix2 r 0) := by
  rw [shapeCast_self]
  exact broadcastTo_apply x1 broadcasts_S2000x1_S2000x64 (ix2 r b) (ix2 r 0) fun ax =>
    match ax with
    | ⟨0, _⟩ => rfl
    | ⟨1, _⟩ => rfl

/-- The lane-number row spread over the 2000 rows reads, at (r, b), the word of `b`. -/
private theorem lane_bcast_apply (r : Fin 2000) (b : Fin 64) :
    broadcastTo S2000x64 (iota .tc S1x64 32 [1] iota_S1x64_d1_w32) broadcasts_S1x64_S2000x64 (ix2 r b)
      = BitVec.ofNat 32 b.val := by
  rw [broadcastTo_1b_ab_apply, iota_single_apply]

/-- The equality flag of two words, widened and read as a signed integer, is 1 or 0. -/
private theorem sitofp_flag (a c : BitVec 32) :
    FloatOps.sitofp (F := Ideal) .f32 ((IntOp.cmpi .eq a c).setWidth 32) = if a = c then (1 : EReal) else 0 := by
  show (((((BitVec.ofBool (a == c)).setWidth 32).toInt : ℤ) : ℝ) : EReal) = _
  by_cases h : a = c
  · have hb : (a == c) = true := by simp [h]
    have e : ((BitVec.ofBool true).setWidth 32).toInt = 1 := by decide
    rw [hb, e, if_pos h]
    simp
  · have hb : (a == c) = false := by simp [h]
    have e : ((BitVec.ofBool false).setWidth 32).toInt = 0 := by decide
    rw [hb, e, if_neg h]
    simp

/-- The bag table: 1 where row `r`'s segment word is `b`, else 0. -/
theorem hot_apply (x1 : Vec Ideal S2000x1 .i32) (r : Fin 2000) (b : Fin 64) :
    k0_pay4 (F := Ideal) x1 (ix2 r b) = hot (x1 (ix2 r 0)) b := by
  unfold k0_pay4 hot
  rw [truncf_apply, sitofp_apply, extui_apply]
  show FloatOps.sitofp (F := Ideal) .f32 ((IntOp.cmpi .eq
      (broadcastTo S2000x64 (shapeCast S2000x1 x1 shapeCasts_S2000x1_S2000x1) broadcasts_S2000x1_S2000x64 (ix2 r b))
      (broadcastTo S2000x64 (iota .tc S1x64 32 [1] iota_S1x64_d1_w32) broadcasts_S1x64_S2000x64 (ix2 r b))).setWidth 32) = _
  rw [seg_bcast_apply, lane_bcast_apply, sitofp_flag]

/-- The stored block: the block before plus the bag table's transpose times the scores. -/
theorem pay1_apply (v80 : FVec Ideal S2000x64 .bf16) (v81 : FVec Ideal S2000x8 .bf16) (v83 : Vec Ideal S1x64x8 .f32)
    (b : Fin 64) (c : Fin 8) :
    k0_pay1 (F := Ideal) v80 v81 v83 (ix3 0 b c) = v83 (ix3 0 b c) + ∑ r : Fin 2000, v80 (ix2 r b) * v81 (ix2 r c) := by
  unfold k0_pay1
  refine (shapeCast_ab_1ab_apply _ _ 0 b c).trans ?_
  rw [addf_apply, shapeCast_1ab_ab_apply]
  refine congrArg (v83 (ix3 0 b c) + ·) ?_
  refine (Cert.LibDot.matmul_colcol_apply _ none v80 v81 _ b c).trans ?_
  rw [constant_apply, Ideal.ofBits_zero_f32, zero_add]

/-- The reset block is zero. -/
theorem pay2_apply (i : S1x64x8.Idx) : k0_pay2 (F := Ideal) i = 0 := by
  unfold k0_pay2
  show Ideal.ofBits .f32 0x00000000#32 = 0
  exact Ideal.ofBits_zero_f32

end Cert.KernelIdeal.Payload

end
-- ==== Proof.KernelAcc.lean ====
/-
  The kernel region's result array, read: entry (core, b, k) is the sum, over the 50 grid points of that core's run
  and the 2000 cells of each point's block, of `hot` of the cell's segment word at bag `b` times the cell's score for
  class `k`. Cell `r` of point `t`'s block is cell `2000 t + r` of the arrays.
-/
import proofs.«421852_j28621662061167_3_alg».proof.Proof.KernelPieces
import proofs.«421852_j28621662061167_3_alg».proof.Proof.KernelPayload
import proofs.«421852_j28621662061167_3_alg».proof.Proof.Gen.KernelIdeal.Points
import Idealize.ShloMosaic.Lib.Pipeline.Value

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (m : (ℓ : Loc nD τ sig) → Buf (Elt Ideal) ℓ)

/-- The arrays as the region finds them, at their literal types. -/
abbrev xA (c : Dev nD) : Vec Ideal S200000x1000 .f32 := V m c main_arg0
abbrev segA (c : Dev nD) : Vec Ideal S200000x1 .i32 := V m c main_v0
abbrev wiT (c : Dev nD) : Vec Ideal S1000x256 .f32 := V m c main_v1
abbrev biA (c : Dev nD) : Vec Ideal S256 .f32 := V m c main_arg4
abbrev whT (c : Dev nD) : Vec Ideal S256x256 .f32 := V m c main_v2
abbrev bhA (c : Dev nD) : Vec Ideal S256 .f32 := V m c main_arg6
abbrev wzT (c : Dev nD) : Vec Ideal S256x32 .f32 := V m c main_v3
abbrev bzA (c : Dev nD) : Vec Ideal S32 .f32 := V m c main_arg8
abbrev pT (c : Dev nD) : Vec Ideal S32x64 .f32 := V m c main_v4
abbrev psqA (c : Dev nD) : Vec Ideal S64 .f32 := V m c main_v6
abbrev wcT (c : Dev nD) : Vec Ideal S64x8 .f32 := V m c main_v7

/-- Cell `n`'s contribution to bag `b`, class `k` (zero past the last cell). -/
def cell (c : Dev nD) (b : Fin 64) (k : Fin 8) (n : ℕ) : EReal :=
  if h : n < 200000 then
    hot (segA m c (ix2 ⟨n, h⟩ 0)) b
      * clrow (fun j => xA m c (ix2 ⟨n, h⟩ j)) (wiT m c) (biA m c) (whT m c) (bhA m c) (wzT m c) (bzA m c) (pT m c) (psqA m c) (wcT m c) k
  else 0

/-! ## The windows' index maps over the grid -/

/-- The block of `x` and of the segment column at point `t` is block `t`; every other input window sits at block 0. -/
private theorem idx_x : ∀ t : Fin cfg0.N, win0_0.index t 0 = t.val ∧ win0_0.index t 1 = 0 :=
  (by decide +kernel : ∀ t : Fin grid0.N, win0_0.index t 0 = t.val ∧ win0_0.index t 1 = 0)
private theorem idx_seg : ∀ t : Fin cfg0.N, win0_1.index t 0 = t.val ∧ win0_1.index t 1 = 0 :=
  (by decide +kernel : ∀ t : Fin grid0.N, win0_1.index t 0 = t.val ∧ win0_1.index t 1 = 0)
private theorem idx_2 : ∀ t : Fin cfg0.N, win0_2.index t 0 = 0 ∧ win0_2.index t 1 = 0 :=
  (by decide +kernel : ∀ t : Fin grid0.N, win0_2.index t 0 = 0 ∧ win0_2.index t 1 = 0)
private theorem idx_3 : ∀ t : Fin cfg0.N, win0_3.index t 0 = 0 :=
  (by decide +kernel : ∀ t : Fin grid0.N, win0_3.index t 0 = 0)
private theorem idx_4 : ∀ t : Fin cfg0.N, win0_4.index t 0 = 0 ∧ win0_4.index t 1 = 0 :=
  (by decide +kernel : ∀ t : Fin grid0.N, win0_4.index t 0 = 0 ∧ win0_4.index t 1 = 0)
private theorem idx_5 : ∀ t : Fin cfg0.N, win0_5.index t 0 = 0 :=
  (by decide +kernel : ∀ t : Fin grid0.N, win0_5.index t 0 = 0)
private theorem idx_6 : ∀ t : Fin cfg0.N, win0_6.index t 0 = 0 ∧ win0_6.index t 1 = 0 :=
  (by decide +kernel : ∀ t : Fin grid0.N, win0_6.index t 0 = 0 ∧ win0_6.index t 1 = 0)
private theorem idx_7 : ∀ t : Fin cfg0.N, win0_7.index t 0 = 0 :=
  (by decide +kernel : ∀ t : Fin grid0.N, win0_7.index t 0 = 0)
private theorem idx_8 : ∀ t : Fin cfg0.N, win0_8.index t 0 = 0 ∧ win0_8.index t 1 = 0 :=
  (by decide +kernel : ∀ t : Fin grid0.N, win0_8.index t 0 = 0 ∧ win0_8.index t 1 = 0)
private theorem idx_9 : ∀ t : Fin cfg0.N, win0_9.index t 0 = 0 :=
  (by decide +kernel : ∀ t : Fin grid0.N, win0_9.index t 0 = 0)
private theorem idx_10 : ∀ t : Fin cfg0.N, win0_10.index t 0 = 0 ∧ win0_10.index t 1 = 0 :=
  (by decide +kernel : ∀ t : Fin grid0.N, win0_10.index t 0 = 0 ∧ win0_10.index t 1 = 0)
/-- The result block at point `t` is row `t / 50` of the result array. -/
private theorem idx_out : ∀ t : Fin cfg0.N, win0_11.index t 0 = t.val / 50 ∧ win0_11.index t 1 = 0 ∧ win0_11.index t 2 = 0 :=
  (by decide +kernel : ∀ t : Fin grid0.N, win0_11.index t 0 = t.val / 50 ∧ win0_11.index t 1 = 0 ∧ win0_11.index t 2 = 0)

/-! ## The input blocks, read off the arrays -/

/-- Row `r` of point `t`'s block of `x` is row `2000 t + r` of `x`. -/
private theorem xblk_apply (c : Dev nD) (t : Fin cfg0.N) (r : Fin 2000) (k : Fin 1000) (n : ℕ) (hn : n = t.val * 2000 + r.val)
    (h : n < 200000) :
    (iblk m c 0 t : Vec Ideal S2000x1000 .f32) (ix2 r k) = xA m c (ix2 ⟨n, h⟩ k) := by
  subst hn
  unfold iblk
  rw [View.read_apply]
  show V m c main_arg0 _ = V m c main_arg0 _
  congr 1
  funext a
  apply Fin.ext
  match a with
  | ⟨0, _⟩ => show win0_0.index t 0 * 2000 + 1 * r.val = t.val * 2000 + r.val; rw [(idx_x t).1]; omega
  | ⟨1, _⟩ => show win0_0.index t 1 * 1000 + 1 * k.val = k.val; rw [(idx_x t).2]; omega

/-- Row `r` of point `t`'s block of the segment column is row `2000 t + r` of the column. -/
private theorem sblk_apply (c : Dev nD) (t : Fin cfg0.N) (r : Fin 2000) (n : ℕ) (hn : n = t.val * 2000 + r.val)
    (h : n < 200000) :
    (iblk m c 1 t : Vec Ideal S2000x1 .i32) (ix2 r 0) = segA m c (ix2 ⟨n, h⟩ 0) := by
  subst hn
  unfold iblk
  rw [View.read_apply]
  show V m c main_v0 _ = V m c main_v0 _
  congr 1
  funext a
  apply Fin.ext
  match a with
  | ⟨0, _⟩ => show win0_1.index t 0 * 2000 + 1 * r.val = t.val * 2000 + r.val; rw [(idx_seg t).1]; omega
  | ⟨1, _⟩ => show win0_1.index t 1 * 1 + 1 * 0 = 0; rw [(idx_seg t).2]

/-- The weight windows hold their whole arrays at every point. -/
private theorem blk2 (c : Dev nD) (t : Fin cfg0.N) : (iblk m c 2 t : Vec Ideal S1000x256 .f32) = wiT m c := by
  funext j
  unfold iblk
  rw [View.read_apply]
  show V m c main_v1 _ = V m c main_v1 j
  congr 1
  funext a
  apply Fin.ext
  match a with
  | ⟨0, _⟩ => show win0_2.index t 0 * 1000 + 1 * (j 0).val = (j 0).val; rw [(idx_2 t).1]; omega
  | ⟨1, _⟩ => show win0_2.index t 1 * 256 + 1 * (j 1).val = (j 1).val; rw [(idx_2 t).2]; omega
private theorem blk3 (c : Dev nD) (t : Fin cfg0.N) : (iblk m c 3 t : Vec Ideal S256 .f32) = biA m c := by
  funext j
  unfold iblk
  rw [View.read_apply]
  show V m c main_arg4 _ = V m c main_arg4 j
  congr 1
  funext a
  apply Fin.ext
  match a with
  | ⟨0, _⟩ => show win0_3.index t 0 * 256 + 1 * (j 0).val = (j 0).val; rw [idx_3 t]; omega
private theorem blk4 (c : Dev nD) (t : Fin cfg0.N) : (iblk m c 4 t : Vec Ideal S256x256 .f32) = whT m c := by
  funext j
  unfold iblk
  rw [View.read_apply]
  show V m c main_v2 _ = V m c main_v2 j
  congr 1
  funext a
  apply Fin.ext
  match a with
  | ⟨0, _⟩ => show win0_4.index t 0 * 256 + 1 * (j 0).val = (j 0).val; rw [(idx_4 t).1]; omega
  | ⟨1, _⟩ => show win0_4.index t 1 * 256 + 1 * (j 1).val = (j 1).val; rw [(idx_4 t).2]; omega
private theorem blk5 (c : Dev nD) (t : Fin cfg0.N) : (iblk m c 5 t : Vec Ideal S256 .f32) = bhA m c := by
  funext j
  unfold iblk
  rw [View.read_apply]
  show V m c main_arg6 _ = V m c main_arg6 j
  congr 1
  funext a
  apply Fin.ext
  match a with
  | ⟨0, _⟩ => show win0_5.index t 0 * 256 + 1 * (j 0).val = (j 0).val; rw [idx_5 t]; omega
private theorem blk6 (c : Dev nD) (t : Fin cfg0.N) : (iblk m c 6 t : Vec Ideal S256x32 .f32) = wzT m c := by
  funext j
  unfold iblk
  rw [View.read_apply]
  show V m c main_v3 _ = V m c main_v3 j
  congr 1
  funext a
  apply Fin.ext
  match a with
  | ⟨0, _⟩ => show win0_6.index t 0 * 256 + 1 * (j 0).val = (j 0).val; rw [(idx_6 t).1]; omega
  | ⟨1, _⟩ => show win0_6.index t 1 * 32 + 1 * (j 1).val = (j 1).val; rw [(idx_6 t).2]; omega
private theorem blk7 (c : Dev nD) (t : Fin cfg0.N) : (iblk m c 7 t : Vec Ideal S32 .f32) = bzA m c := by
  funext j
  unfold iblk
  rw [View.read_apply]
  show V m c main_arg8 _ = V m c main_arg8 j
  congr 1
  funext a
  apply Fin.ext
  match a with
  | ⟨0, _⟩ => show win0_7.index t 0 * 32 + 1 * (j 0).val = (j 0).val; rw [idx_7 t]; omega
private theorem blk8 (c : Dev nD) (t : Fin cfg0.N) : (iblk m c 8 t : Vec Ideal S32x64 .f32) = pT m c := by
  funext j
  unfold iblk
  rw [View.read_apply]
  show V m c main_v4 _ = V m c main_v4 j
  congr 1
  funext a
  apply Fin.ext
  match a with
  | ⟨0, _⟩ => show win0_8.index t 0 * 32 + 1 * (j 0).val = (j 0).val; rw [(idx_8 t).1]; omega
  | ⟨1, _⟩ => show win0_8.index t 1 * 64 + 1 * (j 1).val = (j 1).val; rw [(idx_8 t).2]; omega
private theorem blk9 (c : Dev nD) (t : Fin cfg0.N) : (iblk m c 9 t : Vec Ideal S64 .f32) = psqA m c := by
  funext j
  unfold iblk
  rw [View.read_apply]
  show V m c main_v6 _ = V m c main_v6 j
  congr 1
  funext a
  apply Fin.ext
  match a with
  | ⟨0, _⟩ => show win0_9.index t 0 * 64 + 1 * (j 0).val = (j 0).val; rw [idx_9 t]; omega
private theorem blk10 (c : Dev nD) (t : Fin cfg0.N) : (iblk m c 10 t : Vec Ideal S64x8 .f32) = wcT m c := by
  funext j
  unfold iblk
  rw [View.read_apply]
  show V m c main_v7 _ = V m c main_v7 j
  congr 1
  funext a
  apply Fin.ext
  match a with
  | ⟨0, _⟩ => show win0_10.index t 0 * 64 + 1 * (j 0).val = (j 0).val; rw [(idx_10 t).1]; omega
  | ⟨1, _⟩ => show win0_10.index t 1 * 8 + 1 * (j 1).val = (j 1).val; rw [(idx_10 t).2]; omega

/-! ## One point's addend -/

/-- The sum over the 2000 cells of block `s`. -/
private def pt (c : Dev nD) (b : Fin 64) (k : Fin 8) (s : ℕ) : EReal :=
  ∑ r ∈ Finset.range 2000, cell m c b k (s * 2000 + r)

/-- What the body stores at point `t`, entry by entry: the block before plus the point's addend. -/
private theorem step_apply (c : Dev nD) (t : Fin cfg0.N) (acc : Vec Ideal S1x64x8 .f32) (b : Fin 64) (k : Fin 8) :
    Pieces.stepBlock (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) acc (ix3 0 b k)
      = acc (ix3 0 b k) + pt m c b k t.val := by
  have hN : t.val < 100 := lt_of_lt_of_eq t.isLt (show cfg0.N = 100 from N_0)
  refine (Payload.pay1_apply _ _ acc b k).trans ?_
  congr 1
  unfold pt
  rw [Finset.sum_range]
  refine Finset.sum_congr rfl fun r _ => ?_
  have hlt : t.val * 2000 + r.val < 200000 := by have := r.isLt; omega
  rw [Payload.hot_apply, Payload.cl_apply, blk2, blk3, blk4, blk5, blk6, blk7, blk8, blk9, blk10]
  unfold cell
  rw [dif_pos hlt, sblk_apply m c t r _ rfl hlt]
  congr 2
  funext j
  exact xblk_apply m c t r j _ rfl hlt

/-! ## The block after each point -/

/-- At the first point of a core's run the block is that point's addend. -/
private theorem out_reset (c : Dev nD) (t : Fin cfg0.N) (h0 : t.val % 50 = 0) (b : Fin 64) (k : Fin 8) :
    (outsAt0 m c t.val t.isLt : Vec Ideal S1x64x8 .f32) (ix3 0 b k) = pt m c b k t.val := by
  rw [outsAt0_A m c t h0]
  refine (congrFun (Pieces.out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3 0 b k)).trans ?_
  refine (step_apply m c t (k0_pay2 (F := Ideal)) b k).trans ?_
  rw [Payload.pay2_apply, zero_add]

/-- At a later point it is what the point before left plus the point's addend. -/
private theorem out_step (c : Dev nD) (t : Fin cfg0.N) (h0 : ¬t.val % 50 = 0) (b : Fin 64) (k : Fin 8) :
    (outsAt0 m c t.val t.isLt : Vec Ideal S1x64x8 .f32) (ix3 0 b k)
      = (outsAt0 m c (t.val - 1) (Nat.lt_of_le_of_lt (Nat.sub_le _ _) t.isLt) : Vec Ideal S1x64x8 .f32) (ix3 0 b k) + pt m c b k t.val := by
  rw [outsAt0_B m c t h0]
  refine (congrFun (Pieces.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt))) (ix3 0 b k)).trans ?_
  exact step_apply m c t _ b k

/-- A sum over the points of a run of 50, from its first point to `n`: at the run's first point it is one term, -/
private theorem run_reset {M : Type} [AddCommMonoid M] (f : ℕ → M) (n : ℕ) (h : n % 50 = 0) :
    ∑ s ∈ Finset.range (n % 50 + 1), f (n - n % 50 + s) = f n := by
  rw [h, Finset.sum_range_one]
  rfl

/-- and at a later point the sum to the point before plus one term. -/
private theorem run_step {M : Type} [AddCommMonoid M] (f : ℕ → M) (n : ℕ) (h : ¬n % 50 = 0) :
    ∑ s ∈ Finset.range (n % 50 + 1), f (n - n % 50 + s)
      = (∑ s ∈ Finset.range ((n - 1) % 50 + 1), f (n - 1 - (n - 1) % 50 + s)) + f n := by
  have e1 : n % 50 = (n - 1) % 50 + 1 := by omega
  have e2 : n - n % 50 = n - 1 - (n - 1) % 50 := by omega
  rw [e2, e1, Finset.sum_range_succ]
  congr 2
  omega

/-- THE INVARIANT: after point `n` the block holds the addends of the points of `n`'s run up to `n`. -/
private theorem inv (c : Dev nD) (b : Fin 64) (k : Fin 8) (n : ℕ) : ∀ h : n < cfg0.N,
    (outsAt0 m c n h : Vec Ideal S1x64x8 .f32) (ix3 0 b k)
      = ∑ s ∈ Finset.range (n % 50 + 1), pt m c b k (n - n % 50 + s) := by
  induction n using Nat.strong_induction_on with
  | _ n ih =>
    intro h
    by_cases h0 : n % 50 = 0
    · rw [run_reset (pt m c b k) n h0]
      exact out_reset m c ⟨n, h⟩ h0 b k
    · rw [run_step (pt m c b k) n h0, ← ih (n - 1) (by omega) (Nat.lt_of_le_of_lt (Nat.sub_le _ _) h)]
      exact out_step m c ⟨n, h⟩ h0 b k

/-! ## The result array -/

/-- The result array as one function of its index: row `core` sums the addends of that core's 50 points. -/
private def G (c : Dev nD) : Vec Ideal S2x64x8 .f32 := fun i =>
  ∑ s ∈ Finset.range 50, pt m c (i 1) (i 2) ((i 0).val * 50 + s)

/-- A core's last point writes back its row of `G`: the block it holds is the whole run's sum. -/
private theorem flushed_eq (c : Dev nD) (t : Fin cfg0.N) (hf : (cfg0.win 11).flush t = true) :
    (dats m 0 c).flushed 11 t = ((cfg0.win 11).blk t).view.read (Elt Ideal) (G m c) := by
  have hN : t.val < 100 := lt_of_lt_of_eq t.isLt (show cfg0.N = 100 from N_0)
  have h49 : t.val % 50 = 49 := (flush0_11 t).mp hf
  show (cfg0.win 11).cut (grid0.coords t) ((dats m 0 c).after 11 t) = _
  rw [after0_11]
  funext j
  rw [View.read_apply]
  have hj0 : (j 0).val < 1 := (j 0).isLt
  have hj1 : (j 1).val < 64 := (j 1).isLt
  have hj2 : (j 2).val < 8 := (j 2).isLt
  have e1 : (cfg0.win 11).xinj (grid0.coords t) j = ix3 (0 : Fin 1) ⟨(j 1).val, hj1⟩ ⟨(j 2).val, hj2⟩ := by
    funext a
    apply Fin.ext
    match a with
    | ⟨0, _⟩ => show (j 0).val = 0; omega
    | ⟨1, _⟩ => rfl
    | ⟨2, _⟩ => rfl
  have e2 : ((cfg0.win 11).blk t).view.emb j = ix3 (⟨t.val / 50, by omega⟩ : Fin 2) ⟨(j 1).val, hj1⟩ ⟨(j 2).val, hj2⟩ := by
    funext a
    apply Fin.ext
    match a with
    | ⟨0, _⟩ => show win0_11.index t 0 * 1 + 1 * (j 0).val = t.val / 50; rw [(idx_out t).1]; omega
    | ⟨1, _⟩ => show win0_11.index t 1 * 64 + 1 * (j 1).val = (j 1).val; rw [(idx_out t).2.1]; omega
    | ⟨2, _⟩ => show win0_11.index t 2 * 8 + 1 * (j 2).val = (j 2).val; rw [(idx_out t).2.2]; omega
  show (outsAt0 m c t.val t.isLt : Vec Ideal S1x64x8 .f32) ((cfg0.win 11).xinj (grid0.coords t) j)
    = G m c (((cfg0.win 11).blk t).view.emb j)
  rw [e1, e2, inv m c _ _ t.val t.isLt]
  have a1 : t.val % 50 + 1 = 50 := by omega
  have a2 : t.val - t.val % 50 = t.val / 50 * 50 := by omega
  rw [a1, a2]
  rfl

/-- So the result array ends holding `G`: row `i 0` is written back by point `50 (i 0) + 49`. -/
private theorem final (c : Dev nD) : (dats m 0 c).arrAt 11 cfg0.N = G m c :=
  (dats m 0 c).arrAt_eq_of_cover 11 (G m c) (flushed_eq m c) fun i => by
    have h0 : (i 0).val < 2 := (i 0).isLt
    have h1 : (i 1).val < 64 := (i 1).isLt
    have h2 : (i 2).val < 8 := (i 2).isLt
    have hN : cfg0.N = 100 := N_0
    have hlt : 50 * (i 0).val + 49 < cfg0.N := by rw [hN]; omega
    have ht : (⟨50 * (i 0).val + 49, hlt⟩ : Fin cfg0.N).val = 50 * (i 0).val + 49 := rfl
    refine ⟨⟨50 * (i 0).val + 49, hlt⟩, (flush0_11 _).mpr (by rw [ht]; omega), ?_⟩
    show i ∈ ((View.whole main_v8).slice (win0_11.rect ⟨50 * (i 0).val + 49, hlt⟩)).set
    rw [View.set_slice_whole, Rect.mem_set_unit]
    intro a
    match a with
    | ⟨0, _⟩ =>
      show win0_11.index ⟨50 * (i 0).val + 49, hlt⟩ 0 * 1 ≤ (i 0).val
        ∧ (i 0).val < win0_11.index ⟨50 * (i 0).val + 49, hlt⟩ 0 * 1 + 1
      rw [(idx_out _).1, ht]; omega
    | ⟨1, _⟩ =>
      show win0_11.index ⟨50 * (i 0).val + 49, hlt⟩ 1 * 64 ≤ (i 1).val
        ∧ (i 1).val < win0_11.index ⟨50 * (i 0).val + 49, hlt⟩ 1 * 64 + 64
      rw [(idx_out _).2.1]; omega
    | ⟨2, _⟩ =>
      show win0_11.index ⟨50 * (i 0).val + 49, hlt⟩ 2 * 8 ≤ (i 2).val
        ∧ (i 2).val < win0_11.index ⟨50 * (i 0).val + 49, hlt⟩ 2 * 8 + 8
      rw [(idx_out _).2.2]; omega

/-- The result array after the run, entry by entry. -/
theorem part_apply (c : Dev nD) (core : Fin 2) (b : Fin 64) (k : Fin 8) :
    ((dats m 0 c).arrAt 11 cfg0.N : Vec Ideal S2x64x8 .f32) (ix3 core b k)
      = ∑ s ∈ Finset.range 50, ∑ r ∈ Finset.range 2000, cell m c b k ((core.val * 50 + s) * 2000 + r) :=
  (congrFun (final m c) (ix3 core b k)).trans rfl

end Cert.KernelIdeal.Acc

end
-- ==== Proof.KernelTerms.lean ====
/-
  The host operations after the kernel region, as functions of the values they start from:
  the two cores' partial bag sums added, the per-bag cell count (at least one) dividing them, and the loss.
-/
import proofs.«421852_j28621662061167_3_alg».proof.Proof.Gen.KernelIdeal

noncomputable section

namespace Cert.KernelIdeal.Terms

open Idealize.ShloMosaic Cert.KernelIdeal Cert.KernelIdeal.Gen

variable {F : FTy → Type} [FloatOps F]

/-- The two cores' partial sums added. -/
def sumsOf (part : FVec F S2x64x8 .f32) : FVec F S64x8 .f32 :=
  Host.reduceAdd part (constant S_ .f32 0x00000000#32) reducesTo_S2x64x8_S64x8_d0 h_S_

/-- The per-bag divisor: the number of cells whose segment word names the bag, at least one, along the classes. -/
def denomOf (seg : IVec S200000 32) : FVec F S64x8 .f32 :=
  broadcastInDim S64x8 ![0, 1] bcast_S64x1_S64x8_0_1 (broadcastInDim S64x1 ![0] bcast_S64_S64x1_0
    (maximumf
      (Host.scatterAdd scatter_S64_S200000x1_S200000_n_0_0_1
        (broadcastInDim S64 ![] bcast_S_S64 (constant S_ .f32 0x00000000#32))
        (broadcastInDim S200000x1 ![0] bcast_S200000_S200000x1_0 seg)
        (broadcastInDim S200000 ![] bcast_S_S200000 (constant S_ .f32 0x3F800000#32)))
      (broadcastInDim S64 ![] bcast_S_S64 (constant S_ .f32 0x3F800000#32))))

/-- The bag means: summed scores over the divisor. -/
def logitsOf (sums : FVec F S64x8 .f32) (seg : IVec S200000 32) : FVec F S64x8 .f32 :=
  Host.divf sums (denomOf seg)

/-- Row-wise log-softmax: each row minus its maximum, minus the logarithm of the sum of the exponentials of that. -/
def logSoftmax (a : FVec F S64x8 .f32) : FVec F S64x8 .f32 :=
  let s : FVec F S64x8 .f32 := subf a (broadcastInDim S64x8 ![0, 1] bcast_S64x1_S64x8_0_1 (broadcastInDim S64x1 ![0] bcast_S64_S64x1_0
    (maximumf (broadcastInDim S64 ![] bcast_S_S64 (constant S_ .f32 0xFF800000#32))
      (Host.reduce FloatOps.maximumf a (constant S_ .f32 0xFF800000#32) reducesTo_S64x8_S64_d1 h_S_))))
  subf s (broadcastInDim S64x8 ![0, 1] bcast_S64x1_S64x8_0_1 (Host.log (broadcastInDim S64x1 ![0] bcast_S64_S64x1_0
    (Host.reduceAdd (Host.exp s) (constant S_ .f32 0x00000000#32) reducesTo_S64x8_S64_d1 h_S_))))

/-- The class index of each bag, wrapped when negative, as a [64, 1, 1] table. -/
def takeIdx (yb : IVec S64x1 32) : IVec S64x1x1 32 :=
  shapeCast S64x1x1 (select (cmpi .slt yb (broadcastInDim S64x1 ![] bcast_S_S64x1 (constantI S_ 32 0#32)))
    (addi yb (broadcastInDim S64x1 ![] bcast_S_S64x1 (constantI S_ 32 8#32))) yb) shapeCasts_S64x1_S64x1x1

/-- Each bag's entry of `lp` at its class index, the fill value where the index is out of range. -/
def takeAlong (lp : FVec F S64x8 .f32) (yb : IVec S64x1 32) : FVec F S64x1 .f32 :=
  select
    (Host.reduce IntOp.andi
      (andi (cmpi .sge (takeIdx yb) (broadcastInDim S64x1x1 ![] bcast_S_S64x1x1 (constantI S_ 32 0#32)))
        (cmpi .sle (takeIdx yb) (broadcastInDim S64x1x1 ![0, 1, 2] bcast_S1x1x1_S64x1x1_0_1_2
          (broadcastInDim S1x1x1 ![2] bcast_S1_S1x1x1_2 (constantI S1 32 7#32)))))
      (constantI S_ 1 1#1) reducesTo_S64x1x1_S64x1_d2 h_S_)
    (Host.gather gather_S64x8_S64x1x1_S64x1_n_1_0_0_1_2_11 lp (takeIdx yb))
    (broadcastInDim S64x1 ![] bcast_S_S64x1 (constant S_ .f32 0x7FC00000#32))

/-- The loss: minus the mean over the 64 bags of the log-softmax at the bag's class. -/
def lossOf (logits : FVec F S64x8 .f32) (y : IVec S64 32) : FVec F S_ .f32 :=
  Host.negf (Host.divf
    (Host.reduceAdd (takeAlong (logSoftmax logits) (broadcastInDim S64x1 ![0] bcast_S64_S64x1_0 y))
      (constant S_ .f32 0x00000000#32) reducesTo_S64x1_S_d0_1 h_S_)
    (constant S_ .f32 0x42800000#32))

end Cert.KernelIdeal.Terms

end
-- ==== Proof.KernelHost.lean ====
/-
  The host operations around the kernel region, read as values.

  Before the region: the segment ids as a column, the four weight matrices transposed, the prototypes' squared
  norms. After it: the bag means and the loss, as the functions of Terms applied to the region's result array and
  the arguments.
-/
import proofs.«421852_j28621662061167_3_alg».proof.Proof.Gen.KernelIdeal.Frame
import proofs.«421852_j28621662061167_3_alg».proof.Proof.KernelTerms
import Idealize.ShloMosaic.Lib.StableHlo.Run
import Idealize.ShloMosaic.Lib.Pipeline.Value

noncomputable section

namespace Cert.KernelIdeal.HostVal

open Idealize.ShloMosaic Idealize.ShloMosaic.TcCoe Idealize.SL.Sem Idealize.ShloMosaic.StableHlo
open Cert.KernelIdeal Cert.KernelIdeal.Gen Cert.KernelIdeal.Terms

variable {F : FTy → Type} [FloatOps F]
variable (m : (ℓ : Loc nD τ sig) → Buf (Elt F) ℓ)

/-! ## What the region finds in the arrays the host computed -/

theorem V_v0 (c : Dev nD) : (V m c main_v0 : IVec S200000x1 32)
    = shapeCast S200000x1 (m ((c : Thread nD τ).loc main_arg2)) shapeCasts_S200000_S200000x1 := by
  show StableHlo.after hostOps0 (fun b => m (c, b)) (Proc.devRef .tc main_v0) = _
  after_results
  rfl
theorem V_v1 (c : Dev nD) : (V m c main_v1 : FVec F S1000x256 .f32)
    = transpose S1000x256 [1, 0] (m ((c : Thread nD τ).loc main_arg3)) transposes_S256x1000_S1000x256_1_0 := by
  show StableHlo.after hostOps0 (fun b => m (c, b)) (Proc.devRef .tc main_v1) = _
  after_results
theorem V_v2 (c : Dev nD) : (V m c main_v2 : FVec F S256x256 .f32)
    = transpose S256x256 [1, 0] (m ((c : Thread nD τ).loc main_arg5)) transposes_S256x256_S256x256_1_0 := by
  show StableHlo.after hostOps0 (fun b => m (c, b)) (Proc.devRef .tc main_v2) = _
  after_results
theorem V_v3 (c : Dev nD) : (V m c main_v3 : FVec F S256x32 .f32)
    = transpose S256x32 [1, 0] (m ((c : Thread nD τ).loc main_arg7)) transposes_S32x256_S256x32_1_0 := by
  show StableHlo.after hostOps0 (fun b => m (c, b)) (Proc.devRef .tc main_v3) = _
  after_results
theorem V_v4 (c : Dev nD) : (V m c main_v4 : FVec F S32x64 .f32)
    = transpose S32x64 [1, 0] (m ((c : Thread nD τ).loc main_arg9)) transposes_S64x32_S32x64_1_0 := by
  show StableHlo.after hostOps0 (fun b => m (c, b)) (Proc.devRef .tc main_v4) = _
  after_results
theorem V_v6 (c : Dev nD) : (V m c main_v6 : FVec F S64 .f32)
    = Host.reduceAdd (mulf (m ((c : Thread nD τ).loc main_arg9)) (m ((c : Thread nD τ).loc main_arg9)))
        (constant S_ .f32 0x00000000#32) reducesTo_S64x32_S64_d1 h_S_ := by
  show StableHlo.after hostOps0 (fun b => m (c, b)) (Proc.devRef .tc main_v6) = _
  after_results
theorem V_v7 (c : Dev nD) : (V m c main_v7 : FVec F S64x8 .f32)
    = transpose S64x8 [1, 0] (m ((c : Thread nD τ).loc main_arg10)) transposes_S8x64_S64x8_1_0 := by
  show StableHlo.after hostOps0 (fun b => m (c, b)) (Proc.devRef .tc main_v7) = _
  after_results

/-! ## The two results after the region -/

/-- The region's result array on core `c` after the run (window 11's array is `main_v8`). -/
abbrev part (c : Dev nD) : FVec F S2x64x8 .f32 := (dats m 0 c).arrAt 11 cfg0.N

/-- The region's result array is window 11's array: after the region it holds the region's result. -/
private theorem leaf_v8 (c : Dev nD) :
    Pipeline.withArrays (cfgs 0).spec c (V0 m c) (fun w => (dats m 0 c).arrAt w (cfgs 0).N) (Proc.devRef .tc main_v8)
      = part m c :=
  Pipeline.withArrays_arr spec0 launch0.win.arr_inj c _ _ 11

/-- The segment ids are no window's array and no host operation before the region writes them. -/
private theorem leaf_arg2 (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2
    (by exact (by decide : ∀ w, Pipeline.arrRef spec0 w ≠ main_arg2))).trans (V_main_arg2 m c)

/-- The labels are no window's array and no host operation before the region writes them. -/
private theorem leaf_arg1 (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1
    (by exact (by decide : ∀ w, Pipeline.arrRef spec0 w ≠ main_arg1))).trans (V_main_arg1 m c)

theorem tail_v18 (c : Dev nD) :
    Pipeline.afterTail₀ cfgs (dats m) 0 (V0 m) [hostOps1, hostOps1_1, hostOps1_2, hostOps1_3, hostOps1_4] c main_v18
      = logitsOf (sumsOf (part m c)) (m ((c : Thread nD τ).loc main_arg2)) := by
  unfold Pipeline.afterTail₀
  simp only [hostOps1, hostOps1_1, hostOps1_2, hostOps1_3, hostOps1_4, List.flatten_cons, List.flatten_nil,
    List.append_nil, List.cons_append, List.nil_append]
  after_results_simp
  rw [leaf_v8 m c, leaf_arg2 m c]
  rfl

theorem tail_v24 (c : Dev nD) :
    Pipeline.afterTail₀ cfgs (dats m) 0 (V0 m) [hostOps1, hostOps1_1, hostOps1_2, hostOps1_3, hostOps1_4] c main_v24
      = lossOf (logitsOf (sumsOf (part m c)) (m ((c : Thread nD τ).loc main_arg2))) (m ((c : Thread nD τ).loc main_arg1)) := by
  unfold Pipeline.afterTail₀
  simp only [hostOps1, hostOps1_1, hostOps1_2, hostOps1_3, hostOps1_4, List.flatten_cons, List.flatten_nil,
    List.append_nil, List.cons_append, List.nil_append]
  after_results_simp
  rw [leaf_v8 m c, leaf_arg2 m c, leaf_arg1 m c]
  simp only [TRef.ofBuf, TRef.toBuf, cast_eq]
  rfl

/-- The two result buffers are no array of the pipeline and unscoped, so the frame run's post speaks of them. -/
theorem v18_rest : main_v18 ∈ Pipeline.restRefs sig (cfgs 0).spec :=
  Pipeline.mem_restRefs_of main_v18 rfl (by decide)
theorem v24_rest : main_v24 ∈ Pipeline.restRefs sig (cfgs 0).spec :=
  Pipeline.mem_restRefs_of main_v24 rfl (by decide)

end Cert.KernelIdeal.HostVal

end
-- ==== Proof.RefTerms.lean ====
/-
  The reference as functions of its arguments: the cells' class scores (three dense layers with the leaky
  rectifier, squared distances to the prototypes, the reciprocal, the classifier), their accumulating scatter into
  bags, the per-bag cell count (at least one) dividing them, and the loss.
-/
import proofs.«421852_j28621662061167_3_alg».proof.Proof.Gen.ReferenceIdeal

noncomputable section

namespace Cert.ReferenceIdeal.Terms

open Idealize.ShloMosaic Cert.ReferenceIdeal Cert.ReferenceIdeal.Gen

variable {F : FTy → Type} [FloatOps F]

/-- The leaky rectifier on the two hidden widths. -/
def lrelu256 (v : FVec F S200000x256 .f32) : FVec F S200000x256 .f32 :=
  select (cmpf .oge v (broadcastInDim S200000x256 ![] bcast_S_S200000x256 (constant S_ .f32 0x00000000#32))) v
    (mulf (broadcastInDim S200000x256 ![] bcast_S_S200000x256 (constant S_ .f32 0x3C23D70A#32)) v)
def lrelu32 (v : FVec F S200000x32 .f32) : FVec F S200000x32 .f32 :=
  select (cmpf .oge v (broadcastInDim S200000x32 ![] bcast_S_S200000x32 (constant S_ .f32 0x00000000#32))) v
    (mulf (broadcastInDim S200000x32 ![] bcast_S_S200000x32 (constant S_ .f32 0x3C23D70A#32)) v)

/-- The first hidden layer. -/
def h1Of (x : FVec F S200000x1000 .f32) (Wi : FVec F S256x1000 .f32) (bi : FVec F S256 .f32) : FVec F S200000x256 .f32 :=
  lrelu256 (addf (Host.dotGeneral dot_S200000x1000_S1000x256_S200000x256_1_0_0_1_n_n none x
      (transpose S1000x256 [1, 0] Wi transposes_S256x1000_S1000x256_1_0))
    (broadcastInDim S200000x256 ![0, 1] bcast_S1x256_S200000x256_0_1 (broadcastInDim S1x256 ![1] bcast_S256_S1x256_1 bi)))

/-- The second hidden layer. -/
def h2Of (h : FVec F S200000x256 .f32) (Wh : FVec F S256x256 .f32) (bh : FVec F S256 .f32) : FVec F S200000x256 .f32 :=
  lrelu256 (addf (Host.dotGeneral dot_S200000x256_S256x256_S200000x256_1_0_0_1_n_n none h
      (transpose S256x256 [1, 0] Wh transposes_S256x256_S256x256_1_0))
    (broadcastInDim S200000x256 ![0, 1] bcast_S1x256_S200000x256_0_1 (broadcastInDim S1x256 ![1] bcast_S256_S1x256_1 bh)))

/-- The embedding. -/
def zOf (h : FVec F S200000x256 .f32) (Wz : FVec F S32x256 .f32) (bz : FVec F S32 .f32) : FVec F S200000x32 .f32 :=
  lrelu32 (addf (Host.dotGeneral dot_S200000x256_S256x32_S200000x32_1_0_0_1_n_n none h
      (transpose S256x32 [1, 0] Wz transposes_S32x256_S256x32_1_0))
    (broadcastInDim S200000x32 ![0, 1] bcast_S1x32_S200000x32_0_1 (broadcastInDim S1x32 ![1] bcast_S32_S1x32_1 bz)))

/-- The reciprocal of the shifted squared distances to the prototypes. -/
def invOf (z : FVec F S200000x32 .f32) (P : FVec F S64x32 .f32) : FVec F S200000x64 .f32 :=
  Host.divf (broadcastInDim S200000x64 ![] bcast_S_S200000x64 (constant S_ .f32 0x3F800000#32))
    (addf (addf (subf
          (broadcastInDim S200000x64 ![0, 1] bcast_S200000x1_S200000x64_0_1 (broadcastInDim S200000x1 ![0] bcast_S200000_S200000x1_0
            (Host.reduceAdd (mulf z z) (constant S_ .f32 0x00000000#32) reducesTo_S200000x32_S200000_d1 h_S_)))
          (mulf (broadcastInDim S200000x64 ![] bcast_S_S200000x64 (constant S_ .f32 0x40000000#32))
            (Host.dotGeneral dot_S200000x32_S32x64_S200000x64_1_0_0_1_n_n none z (transpose S32x64 [1, 0] P transposes_S64x32_S32x64_1_0))))
        (broadcastInDim S200000x64 ![0, 1] bcast_S1x64_S200000x64_0_1 (broadcastInDim S1x64 ![1] bcast_S64_S1x64_1
          (Host.reduceAdd (mulf P P) (constant S_ .f32 0x00000000#32) reducesTo_S64x32_S64_d1 h_S_))))
      (broadcastInDim S200000x64 ![] bcast_S_S200000x64 (constant S_ .f32 0x3F000000#32)))

/-- Every cell's class scores. -/
def clOf (x : FVec F S200000x1000 .f32) (Wi : FVec F S256x1000 .f32) (bi : FVec F S256 .f32) (Wh : FVec F S256x256 .f32)
    (bh : FVec F S256 .f32) (Wz : FVec F S32x256 .f32) (bz : FVec F S32 .f32) (P : FVec F S64x32 .f32)
    (Wc : FVec F S8x64 .f32) : FVec F S200000x8 .f32 :=
  Host.dotGeneral dot_S200000x64_S64x8_S200000x8_1_0_0_1_n_n none
    (invOf (zOf (h2Of (h1Of x Wi bi) Wh bh) Wz bz) P) (transpose S64x8 [1, 0] Wc transposes_S8x64_S64x8_1_0)

/-- The scores added into their bags. -/
def sumsOf (cl : FVec F S200000x8 .f32) (seg : IVec S200000 32) : FVec F S64x8 .f32 :=
  Host.scatterAdd scatter_S64x8_S200000x1_S200000x8_1_0_0_1
    (broadcastInDim S64x8 ![] bcast_S_S64x8 (constant S_ .f32 0x00000000#32))
    (broadcastInDim S200000x1 ![0] bcast_S200000_S200000x1_0 seg) cl

/-- The per-bag divisor: the number of cells whose segment word names the bag, at least one, along the classes. -/
def denomOf (seg : IVec S200000 32) : FVec F S64x8 .f32 :=
  broadcastInDim S64x8 ![0, 1] bcast_S64x1_S64x8_0_1 (broadcastInDim S64x1 ![0] bcast_S64_S64x1_0
    (maximumf
      (Host.scatterAdd scatter_S64_S200000x1_S200000_n_0_0_1
        (broadcastInDim S64 ![] bcast_S_S64 (constant S_ .f32 0x00000000#32))
        (broadcastInDim S200000x1 ![0] bcast_S200000_S200000x1_0 seg)
        (broadcastInDim S200000 ![] bcast_S_S200000 (constant S_ .f32 0x3F800000#32)))
      (broadcastInDim S64 ![] bcast_S_S64 (constant S_ .f32 0x3F800000#32))))

/-- The bag means: summed scores over the divisor. -/
def logitsOf (sums : FVec F S64x8 .f32) (seg : IVec S200000 32) : FVec F S64x8 .f32 :=
  Host.divf sums (denomOf seg)

/-- Row-wise log-softmax: each row minus its maximum, minus the logarithm of the sum of the exponentials of that. -/
def logSoftmax (a : FVec F S64x8 .f32) : FVec F S64x8 .f32 :=
  let s : FVec F S64x8 .f32 := subf a (broadcastInDim S64x8 ![0, 1] bcast_S64x1_S64x8_0_1 (broadcastInDim S64x1 ![0] bcast_S64_S64x1_0
    (maximumf (broadcastInDim S64 ![] bcast_S_S64 (constant S_ .f32 0xFF800000#32))
      (Host.reduce FloatOps.maximumf a (constant S_ .f32 0xFF800000#32) reducesTo_S64x8_S64_d1 h_S_))))
  subf s (broadcastInDim S64x8 ![0, 1] bcast_S64x1_S64x8_0_1 (Host.log (broadcastInDim S64x1 ![0] bcast_S64_S64x1_0
    (Host.reduceAdd (Host.exp s) (constant S_ .f32 0x00000000#32) reducesTo_S64x8_S64_d1 h_S_))))

/-- The class index of each bag, wrapped when negative, as a [64, 1, 1] table. -/
def takeIdx (yb : IVec S64x1 32) : IVec S64x1x1 32 :=
  shapeCast S64x1x1 (select (cmpi .slt yb (broadcastInDim S64x1 ![] bcast_S_S64x1 (constantI S_ 32 0#32)))
    (addi yb (broadcastInDim S64x1 ![] bcast_S_S64x1 (constantI S_ 32 8#32))) yb) shapeCasts_S64x1_S64x1x1

/-- Each bag's entry of `lp` at its class index, the fill value where the index is out of range. -/
def takeAlong (lp : FVec F S64x8 .f32) (yb : IVec S64x1 32) : FVec F S64x1 .f32 :=
  select
    (Host.reduce IntOp.andi
      (andi (cmpi .sge (takeIdx yb) (broadcastInDim S64x1x1 ![] bcast_S_S64x1x1 (constantI S_ 32 0#32)))
        (cmpi .sle (takeIdx yb) (broadcastInDim S64x1x1 ![0, 1, 2] bcast_S1x1x1_S64x1x1_0_1_2
          (broadcastInDim S1x1x1 ![2] bcast_S1_S1x1x1_2 (constantI S1 32 7#32)))))
      (constantI S_ 1 1#1) reducesTo_S64x1x1_S64x1_d2 h_S_)
    (Host.gather gather_S64x8_S64x1x1_S64x1_n_1_0_0_1_2_11 lp (takeIdx yb))
    (broadcastInDim S64x1 ![] bcast_S_S64x1 (constant S_ .f32 0x7FC00000#32))

/-- The loss: minus the mean over the 64 bags of the log-softmax at the bag's class. -/
def lossOf (logits : FVec F S64x8 .f32) (y : IVec S64 32) : FVec F S_ .f32 :=
  Host.negf (Host.divf
    (Host.reduceAdd (takeAlong (logSoftmax logits) (broadcastInDim S64x1 ![0] bcast_S64_S64x1_0 y))
      (constant S_ .f32 0x00000000#32) reducesTo_S64x1_S_d0_1 h_S_)
    (constant S_ .f32 0x42800000#32))

end Cert.ReferenceIdeal.Terms

end
-- ==== Proof.RefLayers.lean ====
/-
  The reference's three dense layers read at a cell and a unit: the specification's `dense` of the cell's row of
  the layer's input, over the layer's transposed weight matrix and its bias.
-/
import proofs.«421852_j28621662061167_3_alg».proof.Proof.RefTerms
import proofs.«421852_j28621662061167_3_alg».proof.Proof.Spec
import proofs.«421852_j28621662061167_3_alg».proof.Proof.LibDot
import Idealize.ShloMosaic.Lib.ValueIdx
import Idealize.ShloMosaic.Lib.ValueLayout
import Idealize.ShloMosaic.Lib.IdealHost
import Idealize.ShloMosaic.Lib.StackMember
import Idealize.ShloMosaic.Lib.Pipeline.Value
import Idealize.ShloMosaic.PureOps.Ideal.Laws

noncomputable section

namespace Cert.ReferenceIdeal.RefVal

open Idealize.ShloMosaic Idealize.ShloMosaic.ValueIdx
open Cert.ReferenceIdeal Cert.ReferenceIdeal.Gen Cert.ReferenceIdeal.Terms Cert.Spec

/-- A bias vector laid out as one row and then copied along the rows reads, at (n, j), the bias at j. -/
private theorem bias_apply {M N : Nat} (h1 : (⟨1, ![N]⟩ : Shape).BroadcastsInDim ⟨2, ![1, N]⟩ ![1])
    (h2 : (⟨2, ![1, N]⟩ : Shape).BroadcastsInDim ⟨2, ![M, N]⟩ ![0, 1]) (b : (⟨1, ![N]⟩ : Shape).Idx → EReal)
    (n : Fin M) (j : Fin N) :
    broadcastInDim ⟨2, ![M, N]⟩ ![0, 1] h2 (broadcastInDim ⟨2, ![1, N]⟩ ![1] h1 b) (ix2 n j) = b (ix1 j) := by
  have hj : j.val < N := j.isLt
  have e2 := broadcastInDim_apply ![0, 1] h2 (broadcastInDim ⟨2, ![1, N]⟩ ![1] h1 b) (ix2 n j)
    (ix2 (⟨0, Nat.one_pos⟩ : Fin 1) j) (by
    intro c
    match c with
    | ⟨0, _⟩ =>
      show (0 : Nat) = if (1 : Nat) = 1 then 0 else n.val
      rw [if_pos rfl]
    | ⟨1, _⟩ =>
      show j.val = if N = 1 then 0 else j.val
      split
      · omega
      · rfl)
  have e1 := broadcastInDim_apply ![1] h1 b (ix2 (⟨0, Nat.one_pos⟩ : Fin 1) j) (ix1 j) (by
    intro c
    match c with
    | ⟨0, _⟩ =>
      show j.val = if N = 1 then 0 else j.val
      split
      · omega
      · rfl)
  exact e2.trans e1

/-- A dense layer of the reference — the plain product of the input by the transposed weights, plus the bias copied
    along the rows, through the leaky rectifier — read at (n, j): `dense` of row `n` of the input. -/
private theorem layer_apply {K N : Nat}
    (hs : (⟨0, ![]⟩ : Shape).BroadcastsInDim ⟨2, ![200000, N]⟩ ![])
    (h1 : (⟨1, ![N]⟩ : Shape).BroadcastsInDim ⟨2, ![1, N]⟩ ![1])
    (h2 : (⟨2, ![1, N]⟩ : Shape).BroadcastsInDim ⟨2, ![200000, N]⟩ ![0, 1])
    (inp : FVec Ideal ⟨2, ![200000, K]⟩ .f32) (W : FVec Ideal ⟨2, ![K, N]⟩ .f32) (b : FVec Ideal ⟨1, ![N]⟩ .f32)
    (n : Fin 200000) (j : Fin N) :
    select
        (cmpf .oge
          (addf (Host.dotGeneral (DotDims.plain 200000 K N) none inp W)
            (broadcastInDim ⟨2, ![200000, N]⟩ ![0, 1] h2 (broadcastInDim ⟨2, ![1, N]⟩ ![1] h1 b)))
          (broadcastInDim ⟨2, ![200000, N]⟩ ![] hs (constant (F := Ideal) ⟨0, ![]⟩ .f32 0x00000000#32)))
        (addf (Host.dotGeneral (DotDims.plain 200000 K N) none inp W)
          (broadcastInDim ⟨2, ![200000, N]⟩ ![0, 1] h2 (broadcastInDim ⟨2, ![1, N]⟩ ![1] h1 b)))
        (mulf (broadcastInDim ⟨2, ![200000, N]⟩ ![] hs (constant (F := Ideal) ⟨0, ![]⟩ .f32 0x3C23D70A#32))
          (addf (Host.dotGeneral (DotDims.plain 200000 K N) none inp W)
            (broadcastInDim ⟨2, ![200000, N]⟩ ![0, 1] h2 (broadcastInDim ⟨2, ![1, N]⟩ ![1] h1 b))))
        (ix2 n j)
      = dense (fun k => inp (ix2 n k)) W b j := by
  rw [select_apply, cmpf_apply, mulf_apply, addf_apply, broadcastInDim_scalar_apply, broadcastInDim_scalar_apply,
    constant_apply, constant_apply, bias_apply, StackMember.dotGeneral_plain_apply]
  rfl

/-- One hidden layer of width 256 read at (n, j): `dense` of row `n` of its input over the transposed weights. -/
theorem h1Of_apply (x : FVec Ideal S200000x1000 .f32) (Wi : FVec Ideal S256x1000 .f32) (bi : FVec Ideal S256 .f32)
    (n : Fin 200000) (j : Fin 256) :
    h1Of x Wi bi (ix2 n j)
      = dense (fun k => x (ix2 n k)) (transpose S1000x256 [1, 0] Wi transposes_S256x1000_S1000x256_1_0) bi j :=
  layer_apply bcast_S_S200000x256 bcast_S256_S1x256_1 bcast_S1x256_S200000x256_0_1 x
    (transpose S1000x256 [1, 0] Wi transposes_S256x1000_S1000x256_1_0) bi n j

theorem h2Of_apply (h : FVec Ideal S200000x256 .f32) (Wh : FVec Ideal S256x256 .f32) (bh : FVec Ideal S256 .f32)
    (n : Fin 200000) (j : Fin 256) :
    h2Of h Wh bh (ix2 n j)
      = dense (fun k => h (ix2 n k)) (transpose S256x256 [1, 0] Wh transposes_S256x256_S256x256_1_0) bh j :=
  layer_apply bcast_S_S200000x256 bcast_S256_S1x256_1 bcast_S1x256_S200000x256_0_1 h
    (transpose S256x256 [1, 0] Wh transposes_S256x256_S256x256_1_0) bh n j

theorem zOf_apply (h : FVec Ideal S200000x256 .f32) (Wz : FVec Ideal S32x256 .f32) (bz : FVec Ideal S32 .f32)
    (n : Fin 200000) (j : Fin 32) :
    zOf h Wz bz (ix2 n j)
      = dense (fun k => h (ix2 n k)) (transpose S256x32 [1, 0] Wz transposes_S32x256_S256x32_1_0) bz j :=
  layer_apply bcast_S_S200000x32 bcast_S32_S1x32_1 bcast_S1x32_S200000x32_0_1 h
    (transpose S256x32 [1, 0] Wz transposes_S32x256_S256x32_1_0) bz n j

end Cert.ReferenceIdeal.RefVal

end
-- ==== Proof.RefValue.lean ====
/-
  The reference's class scores read at a cell and a class: the specification's `clrow` of the cell's row of `x`,
  over the transposed weights, the biases and the prototypes' squared norms.
-/
import proofs.«421852_j28621662061167_3_alg».proof.Proof.RefLayers
import proofs.«421852_j28621662061167_3_alg».proof.Proof.RefTerms
import proofs.«421852_j28621662061167_3_alg».proof.Proof.Spec
import proofs.«421852_j28621662061167_3_alg».proof.Proof.LibDot
import Idealize.ShloMosaic.Lib.ValueIdx
import Idealize.ShloMosaic.Lib.ValueLayout
import Idealize.ShloMosaic.Lib.IdealHost
import Idealize.ShloMosaic.Lib.StackMember
import Idealize.ShloMosaic.Lib.Pipeline.Value
import Idealize.ShloMosaic.PureOps.Ideal.Laws

noncomputable section

namespace Cert.ReferenceIdeal.RefVal

open Idealize.ShloMosaic Idealize.ShloMosaic.ValueIdx
open Cert.ReferenceIdeal Cert.ReferenceIdeal.Gen Cert.ReferenceIdeal.Terms Cert.Spec

/-- The two products of the reference are plain ones: rows by the contracted axis times the contracted axis by columns. -/
private theorem dotZP_eq : dot_S200000x32_S32x64_S200000x64_1_0_0_1_n_n = DotDims.plain 200000 32 64 := rfl
private theorem dotCl_eq : dot_S200000x64_S64x8_S200000x8_1_0_0_1_n_n = DotDims.plain 200000 64 8 := rfl

/-- A row's sum of squares: the reduction along the second axis from zero. -/
private theorem rowSq_apply (z : FVec Ideal S200000x32 .f32) (n : Fin 200000) :
    Host.reduceAdd (mulf z z) (constant S_ .f32 0x00000000#32) reducesTo_S200000x32_S200000_d1 h_S_ (ix1 n)
      = ∑ k : Fin 32, z (ix2 n k) * z (ix2 n k) := by
  have h : S200000x32.Reduces [1] S200000 := by decide
  rw [hostReduceAdd_apply, Ideal.hostReduceAdd_single _ h, constant_apply, Ideal.ofBits_zero_f32, zero_add]
  refine Finset.sum_congr rfl fun k _ => ?_
  have e : h.lift (ix1 n) k = ix2 n k := by
    funext a; apply Fin.ext
    match a with
    | ⟨0, _⟩ => rfl
    | ⟨1, _⟩ => rfl
  rw [e]; rfl

/-- A table over the cells, copied along the prototypes, read at a cell and a prototype. -/
private theorem bcastCells_apply {α : Type} (v : S200000.Idx → α) (n : Fin 200000) (p : Fin 64) :
    broadcastInDim S200000x64 ![0, 1] bcast_S200000x1_S200000x64_0_1
        (broadcastInDim S200000x1 ![0] bcast_S200000_S200000x1_0 v) (ix2 n p) = v (ix1 n) := by
  rw [broadcastInDim_apply _ _ _ (ix2 n p) (ix2 n (0 : Fin 1)) (fun a => by
        match a with
        | ⟨0, _⟩ => rfl
        | ⟨1, _⟩ => rfl),
      broadcastInDim_apply _ _ _ (ix2 n (0 : Fin 1)) (ix1 n) (fun a => by
        match a with
        | ⟨0, _⟩ => rfl)]

/-- A table over the prototypes, copied along the cells, read at a cell and a prototype. -/
private theorem bcastProtos_apply {α : Type} (v : S64.Idx → α) (n : Fin 200000) (p : Fin 64) :
    broadcastInDim S200000x64 ![0, 1] bcast_S1x64_S200000x64_0_1
        (broadcastInDim S1x64 ![1] bcast_S64_S1x64_1 v) (ix2 n p) = v (ix1 p) := by
  rw [broadcastInDim_apply _ _ _ (ix2 n p) (ix2 (0 : Fin 1) p) (fun a => by
        match a with
        | ⟨0, _⟩ => rfl
        | ⟨1, _⟩ => rfl),
      broadcastInDim_apply _ _ _ (ix2 (0 : Fin 1) p) (ix1 p) (fun a => by
        match a with
        | ⟨0, _⟩ => rfl)]

theorem invOf_apply (z : FVec Ideal S200000x32 .f32) (P : FVec Ideal S64x32 .f32) (n : Fin 200000) (p : Fin 64) :
    invOf z P (ix2 n p)
      = invrow (fun k => z (ix2 n k)) (transpose S32x64 [1, 0] P transposes_S64x32_S32x64_1_0)
          (Host.reduceAdd (mulf P P) (constant S_ .f32 0x00000000#32) reducesTo_S64x32_S64_d1 h_S_) p := by
  unfold invOf invrow
  rw [hostDivf_apply, addf_apply, addf_apply, subf_apply, mulf_apply, bcastCells_apply, bcastProtos_apply, rowSq_apply,
    dotZP_eq, StackMember.dotGeneral_plain_apply]
  rfl

/-- The scores at cell `n`, class `k`. -/
theorem clOf_apply (x : FVec Ideal S200000x1000 .f32) (Wi : FVec Ideal S256x1000 .f32) (bi : FVec Ideal S256 .f32)
    (Wh : FVec Ideal S256x256 .f32) (bh : FVec Ideal S256 .f32) (Wz : FVec Ideal S32x256 .f32) (bz : FVec Ideal S32 .f32)
    (P : FVec Ideal S64x32 .f32) (Wc : FVec Ideal S8x64 .f32) (n : Fin 200000) (k : Fin 8) :
    clOf x Wi bi Wh bh Wz bz P Wc (ix2 n k)
      = clrow (fun j => x (ix2 n j))
          (transpose S1000x256 [1, 0] Wi transposes_S256x1000_S1000x256_1_0) bi
          (transpose S256x256 [1, 0] Wh transposes_S256x256_S256x256_1_0) bh
          (transpose S256x32 [1, 0] Wz transposes_S32x256_S256x32_1_0) bz
          (transpose S32x64 [1, 0] P transposes_S64x32_S32x64_1_0)
          (Host.reduceAdd (mulf P P) (constant S_ .f32 0x00000000#32) reducesTo_S64x32_S64_d1 h_S_)
          (transpose S64x8 [1, 0] Wc transposes_S8x64_S64x8_1_0) k := by
  have hz : (fun j => zOf (h2Of (h1Of x Wi bi) Wh bh) Wz bz (ix2 n j))
      = zrow (fun j => x (ix2 n j))
          (transpose S1000x256 [1, 0] Wi transposes_S256x1000_S1000x256_1_0) bi
          (transpose S256x256 [1, 0] Wh transposes_S256x256_S256x256_1_0) bh
          (transpose S256x32 [1, 0] Wz transposes_S32x256_S256x32_1_0) bz := by
    funext j
    unfold zrow
    rw [zOf_apply]
    refine congrArg (fun f => dense f _ bz j) (funext fun j2 => ?_)
    rw [h2Of_apply]
    refine congrArg (fun f => dense f _ bh j2) (funext fun j1 => ?_)
    rw [h1Of_apply]
  unfold clOf clrow
  rw [dotCl_eq, StackMember.dotGeneral_plain_apply]
  refine Finset.sum_congr rfl fun q _ => ?_
  rw [invOf_apply, hz]

end Cert.ReferenceIdeal.RefVal

end
-- ==== Proof.ScatterLaw.lean ====
/-
  The host's accumulating scatter of rows, read at one element, on the extended reals.

  The operand is a [B, C] table, the indices a [N, 1] column of words, the updates an [N, C] table; update row
  `n` goes to operand row `idx[n]` read as a signed number and is dropped when that is no row of the table.
  So element (b, c) ends at its old value plus the sum, over the update rows `n` whose word names `b`, of
  `upd[n, c]`: with the 0-or-1 factor `hot`, a sum over every row.
-/
import Idealize.ShloMosaic.Lib.ValueIdx
import Idealize.ShloMosaic.PureOps.Ideal.Laws
import proofs.«421852_j28621662061167_3_alg».proof.Proof.Spec

noncomputable section

namespace Cert.ScatterLaw

open Idealize.ShloMosaic Idealize.ShloMosaic.ValueIdx Cert.Spec

/-- The row scatter's record over any well-formedness witness. -/
abbrev rowsDims (w : ScatterDims.WF ⟨2, ![64, 8]⟩ ⟨2, ![200000, 1]⟩ ⟨2, ![200000, 8]⟩ [1] [0] [0] 1) :
    ScatterDims ⟨2, ![64, 8]⟩ ⟨2, ![200000, 1]⟩ ⟨2, ![200000, 8]⟩ := ⟨[1], [0], [0], 1, w⟩

/-- An update element lands at `i` exactly when, on every operand axis, the window's start plus the window
    coordinate is `i`'s coordinate there: the in-range test is then `i`'s own range. -/
private theorem resultIdx?_eq_some_iff {s si u : Shape} (d : ScatterDims s si u) {w : Nat} (j : u.Idx)
    (idx : IVec si w) (i : s.Idx) :
    d.resultIdx? j idx = some i ↔ ∀ a, d.start j idx a + (d.window j a : Int) = ((i a).val : Int) := by
  unfold ScatterDims.resultIdx?
  split_ifs with h
  · constructor
    · intro heq a
      have h1 := Option.some.inj heq
      have h2 := congrArg Fin.val (congrFun h1 a)
      simp only at h2
      have := h a
      omega
    · intro hall
      congr 1
      funext a
      apply Fin.ext
      simp only
      have := hall a
      omega
  · constructor
    · intro heq; cases heq
    · intro hall
      exfalso; apply h; intro a
      have h1 := hall a
      have h2 := (i a).isLt
      constructor <;> omega

/-- On the row axis the window starts at row `n`'s word, read signed. -/
private theorem start_zero (w : ScatterDims.WF ⟨2, ![64, 8]⟩ ⟨2, ![200000, 1]⟩ ⟨2, ![200000, 8]⟩ [1] [0] [0] 1)
    (idx : IVec ⟨2, ![200000, 1]⟩ 32) (n : Fin 200000) (c' : Fin 8) :
    (rowsDims w).start (ix2 n c') idx 0 = (idx (ix2 n 0)).toInt := by
  unfold ScatterDims.start
  rw [dif_pos (List.mem_singleton.2 rfl)]
  congr 2
  funext b
  match b with
  | ⟨0, _⟩ => rfl
  | ⟨1, _⟩ => rfl

/-- The class axis is not a scattered one: its window starts at 0. -/
private theorem start_one (w : ScatterDims.WF ⟨2, ![64, 8]⟩ ⟨2, ![200000, 1]⟩ ⟨2, ![200000, 8]⟩ [1] [0] [0] 1)
    (idx : IVec ⟨2, ![200000, 1]⟩ 32) (j : (⟨2, ![200000, 8]⟩ : Shape).Idx) :
    (rowsDims w).start j idx 1 = 0 := by
  unfold ScatterDims.start
  rw [dif_neg]
  intro h
  have := List.mem_singleton.1 h
  exact absurd this (by decide)

/-- The row axis is inserted: its window coordinate is 0. -/
private theorem window_zero (w : ScatterDims.WF ⟨2, ![64, 8]⟩ ⟨2, ![200000, 1]⟩ ⟨2, ![200000, 8]⟩ [1] [0] [0] 1)
    (j : (⟨2, ![200000, 8]⟩ : Shape).Idx) :
    (rowsDims w).window j 0 = 0 := by
  unfold ScatterDims.window
  rw [dif_neg]
  have hk : (rowsDims w).sKept = [1] := by rfl
  rw [hk]
  intro h
  have := List.mem_singleton.1 h
  exact absurd this (by decide)

/-- On the class axis the window coordinate is the update's class. -/
private theorem window_one (w : ScatterDims.WF ⟨2, ![64, 8]⟩ ⟨2, ![200000, 1]⟩ ⟨2, ![200000, 8]⟩ [1] [0] [0] 1)
    (n : Fin 200000) (c' : Fin 8) :
    (rowsDims w).window (ix2 n c') 1 = c'.val := by
  unfold ScatterDims.window
  have hk : (rowsDims w).sKept = [1] := by rfl
  rw [dif_pos (by rw [hk]; exact List.mem_singleton.2 rfl)]
  have hi : List.idxOf (1 : Fin 2) (rowsDims w).sKept = 0 := by rfl
  simp only [hi]
  rfl

/-- A 32-bit word read signed is the bag number `b < 64` exactly when the word is `b`. -/
private theorem toInt_eq_bag_iff (v : BitVec 32) (b : Fin 64) :
    v.toInt = (b.val : Int) ↔ v = BitVec.ofNat 32 b.val := by
  have hb := b.isLt
  constructor
  · intro h
    apply BitVec.eq_of_toNat_eq
    rw [BitVec.toNat_ofNat]
    have h1 := BitVec.toInt_eq_toNat_cond v
    have h2 := v.isLt
    omega
  · intro h
    subst h
    have h1 := BitVec.toInt_eq_toNat_cond (BitVec.ofNat 32 b.val)
    rw [BitVec.toNat_ofNat] at h1
    omega

/-- Where update element (n, c') lands: at (b, c) exactly when row `n`'s word names bag `b` and `c' = c`. -/
theorem resultIdx_iff (w : ScatterDims.WF ⟨2, ![64, 8]⟩ ⟨2, ![200000, 1]⟩ ⟨2, ![200000, 8]⟩ [1] [0] [0] 1)
    (idx : IVec ⟨2, ![200000, 1]⟩ 32) (n : Fin 200000) (c' : Fin 8) (b : Fin 64) (c : Fin 8) :
    (rowsDims w).resultIdx? (ix2 n c') idx = some (ix2 b c)
      ↔ idx (ix2 n 0) = BitVec.ofNat 32 b.val ∧ c' = c := by
  rw [resultIdx?_eq_some_iff]
  constructor
  · intro h
    have h0 := h 0
    have h1 := h 1
    rw [start_zero, window_zero] at h0
    rw [start_one, window_one] at h1
    refine ⟨(toInt_eq_bag_iff _ b).1 ?_, Fin.ext ?_⟩
    · have e : ((ix2 b c (0 : Fin 2)).val : Int) = (b.val : Int) := rfl
      omega
    · have e : ((ix2 b c (1 : Fin 2)).val : Int) = (c.val : Int) := rfl
      omega
  · rintro ⟨hw, rfl⟩ a
    match a with
    | ⟨0, _⟩ =>
      have h0 := (toInt_eq_bag_iff _ b).2 hw
      have e := start_zero w idx n c'
      have e' := window_zero w (ix2 n c')
      show (rowsDims w).start (ix2 n c') idx 0 + (((rowsDims w).window (ix2 n c') 0 : Nat) : Int) = (b.val : Int)
      rw [e, e']
      omega
    | ⟨1, _⟩ =>
      have e := start_one w idx (ix2 n c')
      have e' := window_one w n c'
      show (rowsDims w).start (ix2 n c') idx 1 + (((rowsDims w).window (ix2 n c') 1 : Nat) : Int) = (c'.val : Int)
      rw [e, e']
      omega

/-- The accumulating row scatter read at (b, c): the operand there plus the sum over all rows of
    `hot idx[n] b · upd[n, c]`. -/
theorem scatterAdd_rows_apply (w : ScatterDims.WF ⟨2, ![64, 8]⟩ ⟨2, ![200000, 1]⟩ ⟨2, ![200000, 8]⟩ [1] [0] [0] 1)
    (x : (⟨2, ![64, 8]⟩ : Shape).Idx → EReal) (idx : IVec ⟨2, ![200000, 1]⟩ 32)
    (upd : (⟨2, ![200000, 8]⟩ : Shape).Idx → EReal) (b : Fin 64) (c : Fin 8) :
    Ideal.hostScatterAdd (rowsDims w) x idx upd (ix2 b c)
      = x (ix2 b c) + ∑ n : Fin 200000, hot (idx (ix2 n 0)) b * upd (ix2 n c) := by
  unfold Ideal.hostScatterAdd
  refine congrArg (fun t => x (ix2 b c) + t) ?_
  rw [Finset.sum_filter, sum_idx2]
  apply Finset.sum_congr rfl
  intro n _
  simp only [resultIdx_iff]
  unfold hot
  by_cases hw : idx (ix2 n 0) = BitVec.ofNat 32 b.val
  · simp only [hw, true_and, if_true, one_mul]
    rw [Finset.sum_ite_eq']
    simp
  · simp only [hw, false_and, if_false, zero_mul]
    simp

end Cert.ScatterLaw

end
-- ==== Proof.Bridge.lean ====
/-
  The two programs' bag sums are one table.

  The kernel adds, core by core and grid point by grid point, the 0-or-1 table's transpose times each block's class
  scores, then adds the two cores' tables; the reference scatters every cell's scores into its bag. Cell `n` is row
  `r` of point `t`'s block with `n = 2000 t + r`, point `t` is point `s` of core `t / 50`'s run, so the kernel's three
  nested sums run over every cell once; a cell whose segment word names no bag adds nothing on either side; and
  the class scores of a cell are the same function `clrow` of the same row of `x` and the same weights. Sums on the
  extended reals commute and reassociate, and `0 · v = 0`, `1 · v = v` there, so nothing needs the inputs finite.
-/
import proofs.«421852_j28621662061167_3_alg».proof.Proof.KernelAcc
import proofs.«421852_j28621662061167_3_alg».proof.Proof.KernelHost
import proofs.«421852_j28621662061167_3_alg».proof.Proof.RefValue
import proofs.«421852_j28621662061167_3_alg».proof.Proof.ScatterLaw
import proofs.«421852_j28621662061167_3_alg».proof.Proof.LibDot
import proofs.«421852_j28621662061167_3_alg».proof.Proof.KernelTerms
import proofs.«421852_j28621662061167_3_alg».proof.Proof.RefTerms
import Idealize.ShloMosaic.Lib.IdealHost
import Idealize.ShloMosaic.Lib.ValueLayout
import Idealize.ShloMosaic.Lib.Pipeline.Value

noncomputable section

namespace Cert.Bridge

open Idealize.ShloMosaic Idealize.ShloMosaic.TcCoe Idealize.SL.Sem Idealize.ShloMosaic.ValueIdx
open Cert.Spec Cert.KernelIdeal Cert.KernelIdeal.Gen

/-! ## The host tails are one function -/

section Tails
variable {F : FTy → Type} [FloatOps F]

theorem logitsOf_eq (sums : FVec F S64x8 .f32) (seg : IVec S200000 32) :
    Cert.KernelIdeal.Terms.logitsOf sums seg = Cert.ReferenceIdeal.Terms.logitsOf sums seg := rfl

theorem lossOf_eq (logits : FVec F S64x8 .f32) (y : IVec S64 32) :
    Cert.KernelIdeal.Terms.lossOf logits y = Cert.ReferenceIdeal.Terms.lossOf logits y := rfl

end Tails

/-! ## Every cell once -/

/-- The kernel's order of summation — cores, then the points of a core's run, then the rows of a block — visits
    cell `(50 core + s) · 2000 + r`: every cell below 200000 exactly once. -/
theorem sum_grid (f : ℕ → EReal) :
    ∑ core : Fin 2, ∑ s ∈ Finset.range 50, ∑ r ∈ Finset.range 2000, f ((core.val * 50 + s) * 2000 + r)
      = ∑ n : Fin 200000, f n.val := by
  rw [← Finset.sum_range (fun n => f n), show (200000 : ℕ) = (2 * 50) * 2000 from rfl, Cert.LibDot.sum_range_mul,
    Cert.LibDot.sum_range_mul,
    ← Finset.sum_range (fun core => ∑ s ∈ Finset.range 50, ∑ r ∈ Finset.range 2000, f ((core * 50 + s) * 2000 + r))]

/-! ## The kernel's cells are the reference's -/

section Sums

variable (m : (ℓ : Loc nD τ sig) → Buf (Elt Ideal) ℓ)

/-- A list of 200000 words viewed as a column reads, at row `n`, entry `n`. -/
theorem col_apply (v : IVec S200000 32) (n : Fin 200000) :
    shapeCast S200000x1 v shapeCasts_S200000_S200000x1 (ix2 n (0 : Fin 1)) = v (ix1 n) :=
  shapeCast_apply v _ _ _ (by
    rw [Shape.rowMajor_val_one, Shape.rowMajor_val_two]
    show n.val = n.val * 1 + 0
    omega)

/-- The same list broadcast along a unit axis reads the same. -/
theorem bcol_apply (v : IVec S200000 32) (n : Fin 200000) :
    broadcastInDim S200000x1 ![0] bcast_S200000_S200000x1_0 v (ix2 n (0 : Fin 1)) = v (ix1 n) :=
  broadcastInDim_apply _ _ v _ (ix1 n) fun a => match a with | ⟨0, _⟩ => rfl

/-- Cell `n`'s contribution, over the arguments: the region finds the transposed weights, the squared norms and the
    segment column the host computed from them. -/
theorem cell_eq (c : Dev nD) (b : Fin 64) (k : Fin 8) (n : Fin 200000) :
    Cert.KernelIdeal.Acc.cell m c b k n.val
      = hot (((m ((c : Thread nD τ).loc main_arg2)) : IVec S200000 32) (ix1 n)) b
        * clrow (fun j => ((m ((c : Thread nD τ).loc main_arg0)) : FVec Ideal S200000x1000 .f32) (ix2 n j))
          (transpose S1000x256 [1, 0] (m ((c : Thread nD τ).loc main_arg3)) transposes_S256x1000_S1000x256_1_0) (m ((c : Thread nD τ).loc main_arg4))
          (transpose S256x256 [1, 0] (m ((c : Thread nD τ).loc main_arg5)) transposes_S256x256_S256x256_1_0) (m ((c : Thread nD τ).loc main_arg6))
          (transpose S256x32 [1, 0] (m ((c : Thread nD τ).loc main_arg7)) transposes_S32x256_S256x32_1_0) (m ((c : Thread nD τ).loc main_arg8))
          (transpose S32x64 [1, 0] (m ((c : Thread nD τ).loc main_arg9)) transposes_S64x32_S32x64_1_0)
          (Host.reduceAdd (F := Ideal) (mulf (m ((c : Thread nD τ).loc main_arg9)) (m ((c : Thread nD τ).loc main_arg9))) (constant S_ .f32 0x00000000#32) reducesTo_S64x32_S64_d1 h_S_)
          (transpose S64x8 [1, 0] (m ((c : Thread nD τ).loc main_arg10)) transposes_S8x64_S64x8_1_0) k := by
  unfold Cert.KernelIdeal.Acc.cell
  rw [dif_pos n.isLt]
  dsimp only [Cert.KernelIdeal.Acc.segA, Cert.KernelIdeal.Acc.xA, Cert.KernelIdeal.Acc.wiT, Cert.KernelIdeal.Acc.biA,
    Cert.KernelIdeal.Acc.whT, Cert.KernelIdeal.Acc.bhA, Cert.KernelIdeal.Acc.wzT, Cert.KernelIdeal.Acc.bzA,
    Cert.KernelIdeal.Acc.pT, Cert.KernelIdeal.Acc.psqA, Cert.KernelIdeal.Acc.wcT]
  rw [Cert.KernelIdeal.HostVal.V_v0 m c, Cert.KernelIdeal.HostVal.V_v1 m c, Cert.KernelIdeal.HostVal.V_v2 m c,
    Cert.KernelIdeal.HostVal.V_v3 m c, Cert.KernelIdeal.HostVal.V_v4 m c, Cert.KernelIdeal.HostVal.V_v6 m c,
    Cert.KernelIdeal.HostVal.V_v7 m c, V_main_arg0 m c, V_main_arg4 m c, V_main_arg6 m c, V_main_arg8 m c]
  rw [show (⟨n.val, n.isLt⟩ : Fin 200000) = n from rfl, col_apply]

/-- The two cores' tables added are the reference's scatter of every cell's scores. -/
theorem sums_eq (c : Dev nD) :
    Cert.KernelIdeal.Terms.sumsOf (F := Ideal) (Cert.KernelIdeal.HostVal.part m c)
      = Cert.ReferenceIdeal.Terms.sumsOf (F := Ideal)
          (Cert.ReferenceIdeal.Terms.clOf (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
          (m ((c : Thread nD τ).loc main_arg2)) := by
  funext i
  obtain ⟨b, k, rfl⟩ : ∃ (b : Fin 64) (k : Fin 8), i = ix2 b k := ⟨i 0, i 1, eq_ix2 i⟩
  -- the kernel's side: the two cores' entries added, each the sum over its run
  have hL : Cert.KernelIdeal.Terms.sumsOf (F := Ideal) (Cert.KernelIdeal.HostVal.part m c) (ix2 b k)
      = ∑ core : Fin 2, (Cert.KernelIdeal.HostVal.part m c) (ix3 core b k) := by
    unfold Cert.KernelIdeal.Terms.sumsOf
    rw [hostReduceAdd_apply, Ideal.hostReduceAdd_single reducesTo_S2x64x8_S64x8_d0 (by decide : S2x64x8.Reduces [0] S64x8)]
    show Ideal.ofBits .f32 0x00000000#32 + _ = _
    rw [Ideal.ofBits_zero_f32, zero_add]
    exact Finset.sum_congr rfl fun core _ => congrArg _ (funext fun a => match a with
      | ⟨0, _⟩ => rfl | ⟨1, _⟩ => rfl | ⟨2, _⟩ => rfl)
  -- the reference's side: the zero table plus every cell's 0-or-1 factor times its score
  have hR : Cert.ReferenceIdeal.Terms.sumsOf (F := Ideal)
        (Cert.ReferenceIdeal.Terms.clOf (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
        (m ((c : Thread nD τ).loc main_arg2)) (ix2 b k)
      = ∑ n : Fin 200000, hot (((m ((c : Thread nD τ).loc main_arg2)) : IVec S200000 32) (ix1 n)) b
          * Cert.ReferenceIdeal.Terms.clOf (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 n k) := by
    unfold Cert.ReferenceIdeal.Terms.sumsOf
    show Ideal.hostScatterAdd (Cert.ScatterLaw.rowsDims Cert.ReferenceIdeal.Gen.scatter_S64x8_S200000x1_S200000x8_1_0_0_1_wf) _ _ _ (ix2 b k) = _
    rw [Cert.ScatterLaw.scatterAdd_rows_apply, broadcastInDim_scalar_apply]
    show Ideal.ofBits .f32 0x00000000#32 + _ = _
    rw [Ideal.ofBits_zero_f32, zero_add]
    exact Finset.sum_congr rfl fun n _ => by rw [bcol_apply]
  rw [hL, hR]
  simp only [Cert.KernelIdeal.Acc.part_apply]
  rw [sum_grid (fun n => Cert.KernelIdeal.Acc.cell m c b k n)]
  refine Finset.sum_congr rfl fun n _ => ?_
  rw [cell_eq, Cert.ReferenceIdeal.RefVal.clOf_apply]

end Sums

end Cert.Bridge

end
-- ==== Proof.RefRun.lean ====
/-
  The reference program run: its operations in order (the outlined functions' operations at their call sites), and
  what every weakly fair execution ends with — the loss and the bag means as the functions of Terms applied to the
  arguments, the arguments unchanged.
-/
import proofs.«421852_j28621662061167_3_alg».proof.Proof.RefTerms
import Idealize.ShloMosaic.Lib.StableHlo.Run

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Terms

variable {F : FTy → Type} [FloatOps F]

/-- The reference's 120 operations, in program order: its own, and at each call the called function's over that
    call's buffers — the leaky rectifier three times (two constants, their broadcasts, the comparison, the product,
    the selection), the row-wise log-softmax (fifteen), the indexed read along the classes (twenty-two). -/
abbrev ops : List (HloOp τ sig (Elt F)) :=
  [ StableHlo.unary main_arg3 main_v0 ((transpose S1000x256 [1, 0] · transposes_S256x1000_S1000x256_1_0) : (⟨S256x1000, .f32⟩ : BufTy).Contents (Elt F) → (⟨S1000x256, .f32⟩ : BufTy).Contents (Elt F)),
    StableHlo.binary main_arg0 main_v0 main_v1 ((fun l r => Host.dotGeneral dot_S200000x1000_S1000x256_S200000x256_1_0_0_1_n_n none l r) : (⟨S200000x1000, .f32⟩ : BufTy).Contents (Elt F) → (⟨S1000x256, .f32⟩ : BufTy).Contents (Elt F) → (⟨S200000x256, .f32⟩ : BufTy).Contents (Elt F)),
    StableHlo.unary main_arg4 main_v2 (broadcastInDim S1x256 ![1] bcast_S256_S1x256_1 : (⟨S256, .f32⟩ : BufTy).Contents (Elt F) → (⟨S1x256, .f32⟩ : BufTy).Contents (Elt F)),
    StableHlo.unary main_v2 main_v3 (broadcastInDim S200000x256 ![0, 1] bcast_S1x256_S200000x256_0_1 : (⟨S1x256, .f32⟩ : BufTy).Contents (Elt F) → (⟨S200000x256, .f32⟩ : BufTy).Contents (Elt F)),
    StableHlo.binary main_v1 main_v3 main_v4 (addf : (⟨S200000x256, .f32⟩ : BufTy).Contents (Elt F) → (⟨S200000x256, .f32⟩ : BufTy).Contents (Elt F) → (⟨S200000x256, .f32⟩ : BufTy).Contents (Elt F)),
    StableHlo.TRef.nullary main_call0.cst (constant S_ .f32 0x00000000#32),
    StableHlo.TRef.unary main_call0.cst main_call0.v0 (broadcastInDim S200000x256 ![] bcast_S_S200000x256),
    StableHlo.TRef.binary (.of main_v4 : StableHlo.TRef sig ⟨S200000x256, .f32⟩) main_call0.v0 main_call0.v1 (cmpf .oge),
    StableHlo.TRef.nullary main_call0.cst_0 (constant S_ .f32 0x3C23D70A#32),
    StableHlo.TRef.unary main_call0.cst_0 main_call0.v2 (broadcastInDim S200000x256 ![] bcast_S_S200000x256),
    StableHlo.TRef.binary main_call0.v2 (.of main_v4 : StableHlo.TRef sig ⟨S200000x256, .f32⟩) main_call0.v3 mulf,
    StableHlo.TRef.ternary main_call0.v1 (.of main_v4 : StableHlo.TRef sig ⟨S200000x256, .f32⟩) main_call0.v3 main_call0.call0.v0 select,
    StableHlo.unary main_arg5 main_v6 ((transpose S256x256 [1, 0] · transposes_S256x256_S256x256_1_0) : (⟨S256x256, .f32⟩ : BufTy).Contents (Elt F) → (⟨S256x256, .f32⟩ : BufTy).Contents (Elt F)),
    StableHlo.binary main_v5 main_v6 main_v7 ((fun l r => Host.dotGeneral dot_S200000x256_S256x256_S200000x256_1_0_0_1_n_n none l r) : (⟨S200000x256, .f32⟩ : BufTy).Contents (Elt F) → (⟨S256x256, .f32⟩ : BufTy).Contents (Elt F) → (⟨S200000x256, .f32⟩ : BufTy).Contents (Elt F)),
    StableHlo.unary main_arg6 main_v8 (broadcastInDim S1x256 ![1] bcast_S256_S1x256_1 : (⟨S256, .f32⟩ : BufTy).Contents (Elt F) → (⟨S1x256, .f32⟩ : BufTy).Contents (Elt F)),
    StableHlo.unary main_v8 main_v9 (broadcastInDim S200000x256 ![0, 1] bcast_S1x256_S200000x256_0_1 : (⟨S1x256, .f32⟩ : BufTy).Contents (Elt F) → (⟨S200000x256, .f32⟩ : BufTy).Contents (Elt F)),
    StableHlo.binary main_v7 main_v9 main_v10 (addf : (⟨S200000x256, .f32⟩ : BufTy).Contents (Elt F) → (⟨S200000x256, .f32⟩ : BufTy).Contents (Elt F) → (⟨S200000x256, .f32⟩ : BufTy).Contents (Elt F)),
    StableHlo.TRef.nullary main_call1.cst (constant S_ .f32 0x00000000#32),
    StableHlo.TRef.unary main_call1.cst main_call1.v0 (broadcastInDim S200000x256 ![] bcast_S_S200000x256),
    StableHlo.TRef.binary (.of main_v10 : StableHlo.TRef sig ⟨S200000x256, .f32⟩) main_call1.v0 main_call1.v1 (cmpf .oge),
    StableHlo.TRef.nullary main_call1.cst_0 (constant S_ .f32 0x3C23D70A#32),
    StableHlo.TRef.unary main_call1.cst_0 main_call1.v2 (broadcastInDim S200000x256 ![] bcast_S_S200000x256),
    StableHlo.TRef.binary main_call1.v2 (.of main_v10 : StableHlo.TRef sig ⟨S200000x256, .f32⟩) main_call1.v3 mulf,
    StableHlo.TRef.ternary main_call1.v1 (.of main_v10 : StableHlo.TRef sig ⟨S200000x256, .f32⟩) main_call1.v3 main_call1.call0.v0 select,
    StableHlo.unary main_arg7 main_v12 ((transpose S256x32 [1, 0] · transposes_S32x256_S256x32_1_0) : (⟨S32x256, .f32⟩ : BufTy).Contents (Elt F) → (⟨S256x32, .f32⟩ : BufTy).Contents (Elt F)),
    StableHlo.binary main_v11 main_v12 main_v13 ((fun l r => Host.dotGeneral dot_S200000x256_S256x32_S200000x32_1_0_0_1_n_n none l r) : (⟨S200000x256, .f32⟩ : BufTy).Contents (Elt F) → (⟨S256x32, .f32⟩ : BufTy).Contents (Elt F) → (⟨S200000x32, .f32⟩ : BufTy).Contents (Elt F)),
    StableHlo.unary main_arg8 main_v14 (broadcastInDim S1x32 ![1] bcast_S32_S1x32_1 : (⟨S32, .f32⟩ : BufTy).Contents (Elt F) → (⟨S1x32, .f32⟩ : BufTy).Contents (Elt F)),
    StableHlo.unary main_v14 main_v15 (broadcastInDim S200000x32 ![0, 1] bcast_S1x32_S200000x32_0_1 : (⟨S1x32, .f32⟩ : BufTy).Contents (Elt F) → (⟨S200000x32, .f32⟩ : BufTy).Contents (Elt F)),
    StableHlo.binary main_v13 main_v15 main_v16 (addf : (⟨S200000x32, .f32⟩ : BufTy).Contents (Elt F) → (⟨S200000x32, .f32⟩ : BufTy).Contents (Elt F) → (⟨S200000x32, .f32⟩ : BufTy).Contents (Elt F)),
    StableHlo.TRef.nullary main_call2.cst (constant S_ .f32 0x00000000#32),
    StableHlo.TRef.unary main_call2.cst main_call2.v0 (broadcastInDim S200000x32 ![] bcast_S_S200000x32),
    StableHlo.TRef.binary (.of main_v16 : StableHlo.TRef sig ⟨S200000x32, .f32⟩) main_call2.v0 main_call2.v1 (cmpf .oge),
    StableHlo.TRef.nullary main_call2.cst_0 (constant S_ .f32 0x3C23D70A#32),
    StableHlo.TRef.unary main_call2.cst_0 main_call2.v2 (broadcastInDim S200000x32 ![] bcast_S_S200000x32),
    StableHlo.TRef.binary main_call2.v2 (.of main_v16 : StableHlo.TRef sig ⟨S200000x32, .f32⟩) main_call2.v3 mulf,
    StableHlo.TRef.ternary main_call2.v1 (.of main_v16 : StableHlo.TRef sig ⟨S200000x32, .f32⟩) main_call2.v3 main_call2.call0.v0 select,
    StableHlo.binary main_v17 main_v17 main_v18 (mulf : (⟨S200000x32, .f32⟩ : BufTy).Contents (Elt F) → (⟨S200000x32, .f32⟩ : BufTy).Contents (Elt F) → (⟨S200000x32, .f32⟩ : BufTy).Contents (Elt F)),
    StableHlo.nullary main_cst (constant S_ .f32 0x00000000#32),
    StableHlo.binary main_v18 main_cst main_v19 ((fun x v => Host.reduceAdd x v reducesTo_S200000x32_S200000_d1 h_S_) : (⟨S200000x32, .f32⟩ : BufTy).Contents (Elt F) → (⟨S_, .f32⟩ : BufTy).Contents (Elt F) → (⟨S200000, .f32⟩ : BufTy).Contents (Elt F)),
    StableHlo.unary main_v19 main_v20 (broadcastInDim S200000x1 ![0] bcast_S200000_S200000x1_0 : (⟨S200000, .f32⟩ : BufTy).Contents (Elt F) → (⟨S200000x1, .f32⟩ : BufTy).Contents (Elt F)),
    StableHlo.binary main_arg9 main_arg9 main_v21 (mulf : (⟨S64x32, .f32⟩ : BufTy).Contents (Elt F) → (⟨S64x32, .f32⟩ : BufTy).Contents (Elt F) → (⟨S64x32, .f32⟩ : BufTy).Contents (Elt F)),
    StableHlo.nullary main_cst_0 (constant S_ .f32 0x00000000#32),
    StableHlo.binary main_v21 main_cst_0 main_v22 ((fun x v => Host.reduceAdd x v reducesTo_S64x32_S64_d1 h_S_) : (⟨S64x32, .f32⟩ : BufTy).Contents (Elt F) → (⟨S_, .f32⟩ : BufTy).Contents (Elt F) → (⟨S64, .f32⟩ : BufTy).Contents (Elt F)),
    StableHlo.unary main_arg9 main_v23 ((transpose S32x64 [1, 0] · transposes_S64x32_S32x64_1_0) : (⟨S64x32, .f32⟩ : BufTy).Contents (Elt F) → (⟨S32x64, .f32⟩ : BufTy).Contents (Elt F)),
    StableHlo.binary main_v17 main_v23 main_v24 ((fun l r => Host.dotGeneral dot_S200000x32_S32x64_S200000x64_1_0_0_1_n_n none l r) : (⟨S200000x32, .f32⟩ : BufTy).Contents (Elt F) → (⟨S32x64, .f32⟩ : BufTy).Contents (Elt F) → (⟨S200000x64, .f32⟩ : BufTy).Contents (Elt F)),
    StableHlo.nullary main_cst_1 (constant S_ .f32 0x40000000#32),
    StableHlo.unary main_cst_1 main_v25 (broadcastInDim S200000x64 ![] bcast_S_S200000x64 : (⟨S_, .f32⟩ : BufTy).Contents (Elt F) → (⟨S200000x64, .f32⟩ : BufTy).Contents (Elt F)),
    StableHlo.binary main_v25 main_v24 main_v26 (mulf : (⟨S200000x64, .f32⟩ : BufTy).Contents (Elt F) → (⟨S200000x64, .f32⟩ : BufTy).Contents (Elt F) → (⟨S200000x64, .f32⟩ : BufTy).Contents (Elt F)),
    StableHlo.unary main_v20 main_v27 (broadcastInDim S200000x64 ![0, 1] bcast_S200000x1_S200000x64_0_1 : (⟨S200000x1, .f32⟩ : BufTy).Contents (Elt F) → (⟨S200000x64, .f32⟩ : BufTy).Contents (Elt F)),
    StableHlo.binary main_v27 main_v26 main_v28 (subf : (⟨S200000x64, .f32⟩ : BufTy).Contents (Elt F) → (⟨S200000x64, .f32⟩ : BufTy).Contents (Elt F) → (⟨S200000x64, .f32⟩ : BufTy).Contents (Elt F)),
    StableHlo.unary main_v22 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S200000x64 ![0, 1] bcast_S1x64_S200000x64_0_1 : (⟨S1x64, .f32⟩ : BufTy).Contents (Elt F) → (⟨S200000x64, .f32⟩ : BufTy).Contents (Elt F)),
    StableHlo.binary main_v28 main_v30 main_v31 (addf : (⟨S200000x64, .f32⟩ : BufTy).Contents (Elt F) → (⟨S200000x64, .f32⟩ : BufTy).Contents (Elt F) → (⟨S200000x64, .f32⟩ : BufTy).Contents (Elt F)),
    StableHlo.nullary main_cst_2 (constant S_ .f32 0x3F000000#32),
    StableHlo.unary main_cst_2 main_v32 (broadcastInDim S200000x64 ![] bcast_S_S200000x64 : (⟨S_, .f32⟩ : BufTy).Contents (Elt F) → (⟨S200000x64, .f32⟩ : BufTy).Contents (Elt F)),
    StableHlo.binary main_v31 main_v32 main_v33 (addf : (⟨S200000x64, .f32⟩ : BufTy).Contents (Elt F) → (⟨S200000x64, .f32⟩ : BufTy).Contents (Elt F) → (⟨S200000x64, .f32⟩ : BufTy).Contents (Elt F)),
    StableHlo.nullary main_cst_3 (constant S_ .f32 0x3F800000#32),
    StableHlo.unary main_cst_3 main_v34 (broadcastInDim S200000x64 ![] bcast_S_S200000x64 : (⟨S_, .f32⟩ : BufTy).Contents (Elt F) → (⟨S200000x64, .f32⟩ : BufTy).Contents (Elt F)),
    StableHlo.binary main_v34 main_v33 main_v35 (Host.divf : (⟨S200000x64, .f32⟩ : BufTy).Contents (Elt F) → (⟨S200000x64, .f32⟩ : BufTy).Contents (Elt F) → (⟨S200000x64, .f32⟩ : BufTy).Contents (Elt F)),
    StableHlo.unary main_arg10 main_v36 ((transpose S64x8 [1, 0] · transposes_S8x64_S64x8_1_0) : (⟨S8x64, .f32⟩ : BufTy).Contents (Elt F) → (⟨S64x8, .f32⟩ : BufTy).Contents (Elt F)),
    StableHlo.binary main_v35 main_v36 main_v37 ((fun l r => Host.dotGeneral dot_S200000x64_S64x8_S200000x8_1_0_0_1_n_n none l r) : (⟨S200000x64, .f32⟩ : BufTy).Contents (Elt F) → (⟨S64x8, .f32⟩ : BufTy).Contents (Elt F) → (⟨S200000x8, .f32⟩ : BufTy).Contents (Elt F)),
    StableHlo.nullary main_cst_4 (constant S_ .f32 0x00000000#32),
    StableHlo.unary main_cst_4 main_v38 (broadcastInDim S64x8 ![] bcast_S_S64x8 : (⟨S_, .f32⟩ : BufTy).Contents (Elt F) → (⟨S64x8, .f32⟩ : BufTy).Contents (Elt F)),
    StableHlo.unary main_arg2 main_v39 (broadcastInDim S200000x1 ![0] bcast_S200000_S200000x1_0 : (⟨S200000, .i32⟩ : BufTy).Contents (Elt F) → (⟨S200000x1, .i32⟩ : BufTy).Contents (Elt F)),
    StableHlo.ternary main_v38 main_v39 main_v37 main_v40 ((fun x i u => Host.scatterAdd scatter_S64x8_S200000x1_S200000x8_1_0_0_1 x i u) : (⟨S64x8, .f32⟩ : BufTy).Contents (Elt F) → (⟨S200000x1, .i32⟩ : BufTy).Contents (Elt F) → (⟨S200000x8, .f32⟩ : BufTy).Contents (Elt F) → (⟨S64x8, .f32⟩ : BufTy).Contents (Elt F)),
    StableHlo.nullary main_cst_5 (constant S_ .f32 0x3F800000#32),
    StableHlo.unary main_cst_5 main_v41 (broadcastInDim S200000 ![] bcast_S_S200000 : (⟨S_, .f32⟩ : BufTy).Contents (Elt F) → (⟨S200000, .f32⟩ : BufTy).Contents (Elt F)),
    StableHlo.nullary main_cst_6 (constant S_ .f32 0x00000000#32),
    StableHlo.unary main_cst_6 main_v42 (broadcastInDim S64 ![] bcast_S_S64 : (⟨S_, .f32⟩ : BufTy).Contents (Elt F) → (⟨S64, .f32⟩ : BufTy).Contents (Elt F)),
    StableHlo.unary main_arg2 main_v43 (broadcastInDim S200000x1 ![0] bcast_S200000_S200000x1_0 : (⟨S200000, .i32⟩ : BufTy).Contents (Elt F) → (⟨S200000x1, .i32⟩ : BufTy).Contents (Elt F)),
    StableHlo.ternary main_v42 main_v43 main_v41 main_v44 ((fun x i u => Host.scatterAdd scatter_S64_S200000x1_S200000_n_0_0_1 x i u) : (⟨S64, .f32⟩ : BufTy).Contents (Elt F) → (⟨S200000x1, .i32⟩ : BufTy).Contents (Elt F) → (⟨S200000, .f32⟩ : BufTy).Contents (Elt F) → (⟨S64, .f32⟩ : BufTy).Contents (Elt F)),
    StableHlo.nullary main_cst_7 (constant S_ .f32 0x3F800000#32),
    StableHlo.unary main_cst_7 main_v45 (broadcastInDim S64 ![] bcast_S_S64 : (⟨S_, .f32⟩ : BufTy).Contents (Elt F) → (⟨S64, .f32⟩ : BufTy).Contents (Elt F)),
    StableHlo.binary main_v44 main_v45 main_v46 (maximumf : (⟨S64, .f32⟩ : BufTy).Contents (Elt F) → (⟨S64, .f32⟩ : BufTy).Contents (Elt F) → (⟨S64, .f32⟩ : BufTy).Contents (Elt F)),
    StableHlo.unary main_v46 main_v47 (broadcastInDim S64x1 ![0] bcast_S64_S64x1_0 : (⟨S64, .f32⟩ : BufTy).Contents (Elt F) → (⟨S64x1, .f32⟩ : BufTy).Contents (Elt F)),
    StableHlo.unary main_v47 main_v48 (broadcastInDim S64x8 ![0, 1] bcast_S64x1_S64x8_0_1 : (⟨S64x1, .f32⟩ : BufTy).Contents (Elt F) → (⟨S64x8, .f32⟩ : BufTy).Contents (Elt F)),
    StableHlo.binary main_v40 main_v48 main_v49 (Host.divf : (⟨S64x8, .f32⟩ : BufTy).Contents (Elt F) → (⟨S64x8, .f32⟩ : BufTy).Contents (Elt F) → (⟨S64x8, .f32⟩ : BufTy).Contents (Elt F)),
    StableHlo.TRef.nullary main_call3.cst (constant S_ .f32 0xFF800000#32),
    StableHlo.TRef.binary (.of main_v49 : StableHlo.TRef sig ⟨S64x8, .f32⟩) main_call3.cst main_call3.v0 (fun x v => Host.reduce FloatOps.maximumf x v reducesTo_S64x8_S64_d1 h_S_),
    StableHlo.TRef.nullary main_call3.cst_0 (constant S_ .f32 0xFF800000#32),
    StableHlo.TRef.unary main_call3.cst_0 main_call3.v1 (broadcastInDim S64 ![] bcast_S_S64),
    StableHlo.TRef.binary main_call3.v1 main_call3.v0 main_call3.v2 maximumf,
    StableHlo.TRef.unary main_call3.v2 main_call3.v3 (broadcastInDim S64x1 ![0] bcast_S64_S64x1_0),
    StableHlo.TRef.unary main_call3.v3 main_call3.v4 (broadcastInDim S64x8 ![0, 1] bcast_S64x1_S64x8_0_1),
    StableHlo.TRef.binary (.of main_v49 : StableHlo.TRef sig ⟨S64x8, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S64x8_S64_d1 h_S_),
    StableHlo.TRef.unary main_call3.v7 main_call3.v8 (broadcastInDim S64x1 ![0] bcast_S64_S64x1_0),
    StableHlo.TRef.unary main_call3.v8 main_call3.v9 Host.log,
    StableHlo.TRef.unary main_call3.v9 main_call3.v10 (broadcastInDim S64x8 ![0, 1] bcast_S64x1_S64x8_0_1),
    StableHlo.TRef.binary main_call3.v5 main_call3.v10 main_call3.v11 subf,
    StableHlo.unary main_arg1 main_v51 (broadcastInDim S64x1 ![0] bcast_S64_S64x1_0 : (⟨S64, .i32⟩ : BufTy).Contents (Elt F) → (⟨S64x1, .i32⟩ : BufTy).Contents (Elt F)),
    StableHlo.TRef.nullary main_call4.c (constantI S_ 32 0#32),
    StableHlo.TRef.unary main_call4.c main_call4.v0 (broadcastInDim S64x1 ![] bcast_S_S64x1),
    StableHlo.TRef.binary (.of main_v51 : StableHlo.TRef sig ⟨S64x1, .i32⟩) main_call4.v0 main_call4.v1 (cmpi .slt),
    StableHlo.TRef.nullary main_call4.c_0 (constantI S_ 32 8#32),
    StableHlo.TRef.unary main_call4.c_0 main_call4.v2 (broadcastInDim S64x1 ![] bcast_S_S64x1),
    StableHlo.TRef.binary (.of main_v51 : StableHlo.TRef sig ⟨S64x1, .i32⟩) main_call4.v2 main_call4.v3 addi,
    StableHlo.TRef.ternary main_call4.v1 main_call4.v3 (.of main_v51 : StableHlo.TRef sig ⟨S64x1, .i32⟩) main_call4.v4 select,
    StableHlo.TRef.reshape main_call4.v4 main_call4.v5 rfl shapeCasts_S64x1_S64x1x1,
    StableHlo.TRef.nullary main_call4.c_1 (constantI S1 32 7#32),
    StableHlo.TRef.nullary main_call4.c_2 (constantI S_ 32 0#32),
    StableHlo.TRef.unary main_call4.c_2 main_call4.v6 (broadcastInDim S64x1x1 ![] bcast_S_S64x1x1),
    StableHlo.TRef.binary main_call4.v5 main_call4.v6 main_call4.v7 (cmpi .sge),
    StableHlo.TRef.unary main_call4.c_1 main_call4.v8 (broadcastInDim S1x1x1 ![2] bcast_S1_S1x1x1_2),
    StableHlo.TRef.unary main_call4.v8 main_call4.v9 (broadcastInDim S64x1x1 ![0, 1, 2] bcast_S1x1x1_S64x1x1_0_1_2),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S64x1x1_S64x1_d2 h_S_),
    StableHlo.TRef.binary (.of main_v50 : StableHlo.TRef sig ⟨S64x8, .f32⟩) main_call4.v5 main_call4.v13 (fun x i => Host.gather gather_S64x8_S64x1x1_S64x1_n_1_0_0_1_2_11 x i),
    StableHlo.TRef.nullary main_call4.cst (constant S_ .f32 0x7FC00000#32),
    StableHlo.TRef.unary main_call4.cst main_call4.v14 (broadcastInDim S64x1 ![] bcast_S_S64x1),
    StableHlo.TRef.ternary main_call4.v12 main_call4.v13 main_call4.v14 main_call4.v15 select,
    StableHlo.nullary main_cst_8 (constant S_ .f32 0x00000000#32),
    StableHlo.binary main_v52 main_cst_8 main_v53 ((fun x v => Host.reduceAdd x v reducesTo_S64x1_S_d0_1 h_S_) : (⟨S64x1, .f32⟩ : BufTy).Contents (Elt F) → (⟨S_, .f32⟩ : BufTy).Contents (Elt F) → (⟨S_, .f32⟩ : BufTy).Contents (Elt F)),
    StableHlo.nullary main_cst_9 (constant S_ .f32 0x42800000#32),
    StableHlo.binary main_v53 main_cst_9 main_v54 (Host.divf : (⟨S_, .f32⟩ : BufTy).Contents (Elt F) → (⟨S_, .f32⟩ : BufTy).Contents (Elt F) → (⟨S_, .f32⟩ : BufTy).Contents (Elt F)),
    StableHlo.unary main_v54 main_v55 (Host.negf : (⟨S_, .f32⟩ : BufTy).Contents (Elt F) → (⟨S_, .f32⟩ : BufTy).Contents (Elt F)) ]

set_option maxRecDepth 8192 in
/-- The program is that straight line: the functions' bodies substituted at their calls, the two windows one after
    the other, sequencing reassociated to the right. -/
theorem main_eq (c : Dev nD) : main (F := F) c = seq ops := by
  simp only [main, main_part0, main_part1, fn_leaky_relu.body, fn_leaky_relu_0.body, fn_where.body, fn_where_1.body,
    fn_log_softmax.body, fn_take_along_axis.body, seq, bind_assoc, pure_bind]

/-- No buffer and no semaphore of the signature is scoped. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the signature only. -/
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., nullary_bufs_sub .., binary_bufs_sub .., unary_bufs_sub .., binary_bufs_sub .., nullary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub .., nullary_bufs_sub .., binary_bufs_sub .., unary_bufs_sub ..⟩

/-! ## What the buffers hold after the line

Each operation leaves its function's value at the buffer it writes and every other buffer as it was; read back from
the result, the values compose to the functions of Terms. The reductions, the indexed read and the accumulating
scatter are kept folded: the equations never look inside them. -/

attribute [local irreducible] Host.reduce Host.reduceAdd Host.gather Host.scatterAdd in
set_option maxRecDepth 16384 in
set_option maxHeartbeats 4000000 in
/-- The bag means: the summed class scores over the per-bag divisor. -/
theorem v49_eq (V : Valuation τ sig (Elt F)) :
    after ops V (main_v49 : DevRef τ sig) = (logitsOf (sumsOf (clOf (V (main_arg0 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig))) (V (main_arg2 : DevRef τ sig))) (V (main_arg2 : DevRef τ sig))) := by
  after_results_simp
  rfl

attribute [local irreducible] Host.reduce Host.reduceAdd Host.gather Host.scatterAdd in
set_option maxRecDepth 16384 in
set_option maxHeartbeats 4000000 in
/-- The loss: minus the mean over the bags of the log-softmax of the bag means at the bag's class. -/
theorem v55_eq (V : Valuation τ sig (Elt F)) :
    after ops V (main_v55 : DevRef τ sig) = lossOf (logitsOf (sumsOf (clOf (V (main_arg0 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig))) (V (main_arg2 : DevRef τ sig))) (V (main_arg2 : DevRef τ sig))) (V (main_arg1 : DevRef τ sig)) := by
  after_results_simp
  rfl

/-! The arguments are written by no operation. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem arg10_eq (V : Valuation τ sig (Elt F)) :
    after ops V (main_arg10 : DevRef τ sig) = V (main_arg10 : DevRef τ sig) := by
  after_results_simp

/-- On every device, for any float values, from any memory with zero counters: every weakly fair execution of the
    reference terminates with the loss and the bag means at the arguments' functions, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55) = lossOf (logitsOf (sumsOf (clOf (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg2))) (m ((c.tc : Thread nD τ).loc main_arg2))) (m ((c.tc : Thread nD τ).loc main_arg1))
      ∧ r.2.mem ((c.tc : Thread nD τ).loc main_v49) = (logitsOf (sumsOf (clOf (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg2))) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v55).trans (v55_eq _), (h c main_v49).trans (v49_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_seq scopedRefs_eq scopedSems_eq defs main (fun _ => ops) main_eq (fun _ => ops_sub) m ρ)

end Cert.ReferenceIdeal.RefRun

end
-- ==== Proof.lean ====
/-
  The certificate: a kernel that pools per-cell class scores into per-bag means, against its reference program.

  Both programs score every one of 200000 cells by the same arithmetic — three dense layers with a leaky
  rectifier, the shifted squared distances of the embedding to 64 prototypes, their reciprocals times a classifier
  matrix — and pool the scores by bag. The kernel walks the cells in blocks of 2000 on a grid of two cores by fifty
  points, multiplying each block's scores by the 0-or-1 table of which cell is in which bag and carrying the running
  table from point to point; the host adds the two cores' tables. The reference scatters every cell's scores into
  its bag. On the extended reals the two tables are one (Bridge): the kernel's nested sums visit each cell once, a
  cell outside every bag adds nothing either way, and each cell's scores are one function of the same numbers.
  The rest of both programs — divide by the bag's cell count (at least one), log-softmax, pick the bag's class,
  minus the mean — is the same operations applied to the same table, so the results agree.

  The three frames are the generated frame runs (the kernel at both instances) and the reference's run with its
  results dropped; the idealization rewrote nothing, so `preserves` is trivial.
-/
import proofs.«421852_j28621662061167_3_alg».proof.Defs
import proofs.«421852_j28621662061167_3_alg».proof.Proof.Gen.Kernel
import proofs.«421852_j28621662061167_3_alg».proof.Proof.Gen.Kernel.Frame
import proofs.«421852_j28621662061167_3_alg».proof.Proof.Gen.KernelIdeal
import proofs.«421852_j28621662061167_3_alg».proof.Proof.Gen.KernelIdeal.Frame
import proofs.«421852_j28621662061167_3_alg».proof.Proof.Gen.ReferenceIdeal
import proofs.«421852_j28621662061167_3_alg».proof.Proof.Gen.Pre_finite_inputs
import proofs.«421852_j28621662061167_3_alg».proof.Proof.Bridge
import proofs.«421852_j28621662061167_3_alg».proof.Proof.RefRun
import proofs.«421852_j28621662061167_3_alg».proof.Proof.KernelHost
import Idealize.ShloMosaic.Adequacy
import Idealize.ShloMosaic.Init

noncomputable section

namespace Cert.Proof

open Idealize.ShloMosaic Idealize.SL.Sem
open Idealize.ShloMosaic.Pipeline (Dat)

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2)
    (Cert.ReferenceIdeal.RefRun.run (F := Ideal) m ρ)

/-- The kernel program's run, read: the loss and the bag means as the host tail's functions of the region's result
    array and the arguments, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ fun r => ∀ c : Dev Cert.KernelIdeal.nD,
      r.2.mem ((c.tc : Thread Cert.KernelIdeal.nD Cert.KernelIdeal.τ).loc Cert.KernelIdeal.main_v24)
          = Cert.KernelIdeal.Terms.lossOf (F := Ideal) (Cert.KernelIdeal.Terms.logitsOf (F := Ideal) (Cert.KernelIdeal.Terms.sumsOf (Cert.KernelIdeal.HostVal.part m c)) (m ((c.tc : Thread Cert.KernelIdeal.nD Cert.KernelIdeal.τ).loc Cert.KernelIdeal.main_arg2))) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_v18) = (Cert.KernelIdeal.Terms.logitsOf (F := Ideal) (Cert.KernelIdeal.Terms.sumsOf (Cert.KernelIdeal.HostVal.part m c)) (m ((c.tc : Thread Cert.KernelIdeal.nD Cert.KernelIdeal.τ).loc Cert.KernelIdeal.main_arg2)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10) :=
  (θ_run Cert.KernelIdeal.defs _ _).mono (fun r h c =>
    ⟨((h c).2 Cert.KernelIdeal.main_v24 Cert.KernelIdeal.HostVal.v24_rest).trans (Cert.KernelIdeal.HostVal.tail_v24 m c),
      ((h c).2 Cert.KernelIdeal.main_v18 Cert.KernelIdeal.HostVal.v18_rest).trans (Cert.KernelIdeal.HostVal.tail_v18 m c),
      ((h c).1 0).trans (((Cert.KernelIdeal.Gen.dats m 0 c).arrAt_in 0 rfl _).trans ((Cert.KernelIdeal.Gen.A_eq m c 0).trans (Cert.KernelIdeal.Gen.V_main_arg0 m c))),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c),
      ((h c).2 Cert.KernelIdeal.main_arg3 (Pipeline.mem_restRefs_of Cert.KernelIdeal.main_arg3 (by decide) (by decide))).trans (Cert.KernelIdeal.Gen.W_main_arg3 m (Cert.KernelIdeal.Gen.dats m) c),
      ((h c).1 3).trans (((Cert.KernelIdeal.Gen.dats m 0 c).arrAt_in 3 rfl _).trans ((Cert.KernelIdeal.Gen.A_eq m c 3).trans (Cert.KernelIdeal.Gen.V_main_arg4 m c))),
      ((h c).2 Cert.KernelIdeal.main_arg5 (Pipeline.mem_restRefs_of Cert.KernelIdeal.main_arg5 (by decide) (by decide))).trans (Cert.KernelIdeal.Gen.W_main_arg5 m (Cert.KernelIdeal.Gen.dats m) c),
      ((h c).1 5).trans (((Cert.KernelIdeal.Gen.dats m 0 c).arrAt_in 5 rfl _).trans ((Cert.KernelIdeal.Gen.A_eq m c 5).trans (Cert.KernelIdeal.Gen.V_main_arg6 m c))),
      ((h c).2 Cert.KernelIdeal.main_arg7 (Pipeline.mem_restRefs_of Cert.KernelIdeal.main_arg7 (by decide) (by decide))).trans (Cert.KernelIdeal.Gen.W_main_arg7 m (Cert.KernelIdeal.Gen.dats m) c),
      ((h c).1 7).trans (((Cert.KernelIdeal.Gen.dats m 0 c).arrAt_in 7 rfl _).trans ((Cert.KernelIdeal.Gen.A_eq m c 7).trans (Cert.KernelIdeal.Gen.V_main_arg8 m c))),
      ((h c).2 Cert.KernelIdeal.main_arg9 (Pipeline.mem_restRefs_of Cert.KernelIdeal.main_arg9 (by decide) (by decide))).trans (Cert.KernelIdeal.Gen.W_main_arg9 m (Cert.KernelIdeal.Gen.dats m) c),
      ((h c).2 Cert.KernelIdeal.main_arg10 (Pipeline.mem_restRefs_of Cert.KernelIdeal.main_arg10 (by decide) (by decide))).trans (Cert.KernelIdeal.Gen.W_main_arg10 m (Cert.KernelIdeal.Gen.dats m) c)⟩)
    (Cert.KernelIdeal.Gen.run_main m ρ)

theorem algebraic : Cert.algebraic_KernelIdeal_ReferenceIdeal := by
  intro m ρ m' ρ' _ hagree
  refine ⟨fun c => Cert.KernelIdeal.Terms.lossOf (F := Ideal) (Cert.KernelIdeal.Terms.logitsOf (F := Ideal) (Cert.KernelIdeal.Terms.sumsOf (Cert.KernelIdeal.HostVal.part m c)) (m ((c.tc : Thread Cert.KernelIdeal.nD Cert.KernelIdeal.τ).loc Cert.KernelIdeal.main_arg2))) (m ((c.tc : Thread Cert.KernelIdeal.nD Cert.KernelIdeal.τ).loc Cert.KernelIdeal.main_arg1)), fun c => (Cert.KernelIdeal.Terms.logitsOf (F := Ideal) (Cert.KernelIdeal.Terms.sumsOf (Cert.KernelIdeal.HostVal.part m c)) (m ((c.tc : Thread Cert.KernelIdeal.nD Cert.KernelIdeal.τ).loc Cert.KernelIdeal.main_arg2))), kernel_run m ρ, ?_⟩
  refine (θ_run Cert.ReferenceIdeal.defs _ _).mono (fun r h c => ?_) (Cert.ReferenceIdeal.RefRun.run (F := Ideal) m' ρ')
  obtain ⟨h55, h49, hk⟩ := h c
  obtain ⟨a0, a1, a2, a3, a4, a5, a6, a7, a8, a9, a10⟩ := hagree c
  have hs := Cert.Bridge.sums_eq m c
  refine ⟨h55.trans ?_, h49.trans ?_, hk⟩
  · rw [a0, a1, a2, a3, a4, a5, a6, a7, a8, a9, a10, ← hs]
    exact ((Cert.Bridge.lossOf_eq _ _).trans (congrArg (fun l => Cert.ReferenceIdeal.Terms.lossOf (F := Ideal) l _) (Cert.Bridge.logitsOf_eq _ _))).symm
  · rw [a0, a2, a3, a4, a5, a6, a7, a8, a9, a10, ← hs]
    exact (Cert.Bridge.logitsOf_eq _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
